-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S50000 : Shape := ⟨1, ![50000]⟩
abbrev S100000 : Shape := ⟨1, ![100000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg7 : FVec F S64x128 .f32) (main_arg8 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S64x128 .f32 := Host.absf main_arg7
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64 .f32 := Host.absf main_arg8
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S100000x128 .f32) (main_arg1 : IVec S2x1600000 32) (main_arg2 : FVec F S1600000 .f32) (main_arg3 : IVec S50000 32) (main_arg4 : IVec S100000 32) (main_arg5 : FVec F S128x128 .f32) (main_arg6 : FVec F S128 .f32) (main_arg7 : FVec F S64x128 .f32) (main_arg8 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg5
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg6
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg7 main_arg8 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S50000 : Shape := ⟨1, ![50000]⟩
abbrev S100000 : Shape := ⟨1, ![100000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x1600000 : Shape := ⟨2, ![1, 1600000]⟩
abbrev S_ : Shape := ⟨0, ![]⟩
abbrev S1600000x1 : Shape := ⟨2, ![1600000, 1]⟩
abbrev S1600000x128 : Shape := ⟨2, ![1600000, 128]⟩
abbrev S50000x1 : Shape := ⟨2, ![50000, 1]⟩
abbrev S50000x128 : Shape := ⟨2, ![50000, 128]⟩
abbrev S128x64 : Shape := ⟨2, ![128, 64]⟩
abbrev S1x128 : Shape := ⟨2, ![1, 128]⟩
abbrev S1x64 : Shape := ⟨2, ![1, 64]⟩
abbrev S50000x64 : Shape := ⟨2, ![50000, 64]⟩
abbrev S2000x128 : Shape := ⟨2, ![2000, 128]⟩
abbrev S2000x64 : Shape := ⟨2, ![2000, 64]⟩
abbrev S2000 : Shape := ⟨1, ![2000]⟩
abbrev S2000x1 : Shape := ⟨2, ![2000, 1]⟩
abbrev S100000x1 : Shape := ⟨2, ![100000, 1]⟩
abbrev S100000x64 : Shape := ⟨2, ![100000, 64]⟩

abbrev nBuf : Space → Nat
  | .hbm => 68
  | .vmem => 8
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S50000, .i32⟩
  | .hbm, ⟨4, _⟩ => ⟨S100000, .i32⟩
  | .hbm, ⟨5, _⟩ => ⟨S128x128, .f32⟩
  | .hbm, ⟨6, _⟩ => ⟨S128, .f32⟩
  | .hbm, ⟨7, _⟩ => ⟨S64x128, .f32⟩
  | .hbm, ⟨8, _⟩ => ⟨S64, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x128, .f32⟩
  | .hbm, ⟨22, _⟩ => ⟨S1600000x1, .f32⟩
  | .hbm, ⟨23, _⟩ => ⟨S1600000x128, .f32⟩
  | .hbm, ⟨24, _⟩ => ⟨S1600000x128, .f32⟩
  | .hbm, ⟨25, _⟩ => ⟨S_, .f32⟩
  | .hbm, ⟨26, _⟩ => ⟨S100000x128, .f32⟩
  | .hbm, ⟨27, _⟩ => ⟨S1600000x1, .i32⟩
  | .hbm, ⟨28, _⟩ => ⟨S100000x128, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x128, .f32⟩
  | .hbm, ⟨38, _⟩ => ⟨S1600000x1, .f32⟩
  | .hbm, ⟨39, _⟩ => ⟨S1600000x128, .f32⟩
  | .hbm, ⟨40, _⟩ => ⟨S1600000x128, .f32⟩
  | .hbm, ⟨41, _⟩ => ⟨S_, .f32⟩
  | .hbm, ⟨42, _⟩ => ⟨S100000x128, .f32⟩
  | .hbm, ⟨43, _⟩ => ⟨S1600000x1, .i32⟩
  | .hbm, ⟨44, _⟩ => ⟨S100000x128, .f32⟩
  | .hbm, ⟨45, _⟩ => ⟨S_, .i32⟩
  | .hbm, ⟨46, _⟩ => ⟨S50000, .i32⟩
  | .hbm, ⟨47, _⟩ => ⟨S50000, .i1⟩
  | .hbm, ⟨48, _⟩ => ⟨S_, .i32⟩
  | .hbm, ⟨49, _⟩ => ⟨S50000, .i32⟩
  | .hbm, ⟨50, _⟩ => ⟨S50000, .i32⟩
  | .hbm, ⟨51, _⟩ => ⟨S50000, .i32⟩
  | .hbm, ⟨52, _⟩ => ⟨S50000x1, .i32⟩
  | .hbm, ⟨53, _⟩ => ⟨S50000x128, .f32⟩
  | .hbm, ⟨54, _⟩ => ⟨S128x128, .f32⟩
  | .hbm, ⟨55, _⟩ => ⟨S128x64, .f32⟩
  | .hbm, ⟨56, _⟩ => ⟨S1x128, .f32⟩
  | .hbm, ⟨57, _⟩ => ⟨S1x64, .f32⟩
  | .hbm, ⟨58, _⟩ => ⟨S50000x64, .f32⟩
  | .hbm, ⟨59, _⟩ => ⟨S_, .i32⟩
  | .hbm, ⟨60, _⟩ => ⟨S100000, .i32⟩
  | .hbm, ⟨61, _⟩ => ⟨S100000, .i1⟩
  | .hbm, ⟨62, _⟩ => ⟨S_, .i32⟩
  | .hbm, ⟨63, _⟩ => ⟨S100000, .i32⟩
  | .hbm, ⟨64, _⟩ => ⟨S100000, .i32⟩
  | .hbm, ⟨65, _⟩ => ⟨S100000, .i32⟩
  | .hbm, ⟨66, _⟩ => ⟨S100000x1, .i32⟩
  | .hbm, ⟨67, _⟩ => ⟨S100000x64, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S1x128, .f32⟩
  | .local _ .vmem, ⟨4, _⟩ => ⟨S128x64, .f32⟩
  | .local _ .vmem, ⟨5, _⟩ => ⟨S1x64, .f32⟩
  | .local _ .vmem, ⟨6, _⟩ => ⟨S2000x64, .f32⟩
  | .local _ .vmem, ⟨7, _⟩ => ⟨S2000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_1 : Ref sig .tc := ⟨.hbm, 29, rfl⟩
abbrev main_v17 : Ref sig .tc := ⟨.hbm, 30, rfl⟩
abbrev main_v18 : Ref sig .tc := ⟨.hbm, 31, rfl⟩
abbrev main_c_2 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_4 : Ref sig .tc := ⟨.hbm, 45, rfl⟩
abbrev main_v30 : Ref sig .tc := ⟨.hbm, 46, rfl⟩
abbrev main_v31 : Ref sig .tc := ⟨.hbm, 47, rfl⟩
abbrev main_c_5 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_c_6 : Ref sig .tc := ⟨.hbm, 59, rfl⟩
abbrev main_v42 : Ref sig .tc := ⟨.hbm, 60, rfl⟩
abbrev main_v43 : Ref sig .tc := ⟨.hbm, 61, rfl⟩
abbrev main_c_7 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S_S50000 : S_.BroadcastsInDim S50000 (![] : Fin 0 → Fin S50000.rank)
  bcast_S50000_S50000x1_0 : S50000.BroadcastsInDim S50000x1 (![0] : Fin 1 → Fin S50000x1.rank)
  transposes_S128x128_S128x128_1_0 : S128x128.Transposes [1, 0] S128x128
  transposes_S64x128_S128x64_1_0 : S64x128.Transposes [1, 0] S128x64
  shapeCasts_S128_S1x128 : S128.ShapeCasts S1x128
  shapeCasts_S64_S1x64 : S64.ShapeCasts S1x64
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  reduces_S2000x64_S2000 : S2000x64.Reduces [1] S2000
  shapeCasts_S2000_S2000x1 : S2000.ShapeCasts S2000x1
  broadcasts_S2000x1_S2000x64 : S2000x1.Broadcasts S2000x64
  inb_S2000x64_S2000x64_0_0 : ∀ a, (![0, 0] : Fin 2 → Nat) a + S2000x64.size a ≤ S2000x64.size a
  h_S2000x64 : 0 < S2000x64.numel
  bcast_S_S100000 : S_.BroadcastsInDim S100000 (![] : Fin 0 → Fin S100000.rank)
  bcast_S100000_S100000x1_0 : S100000.BroadcastsInDim S100000x1 (![0] : Fin 1 → Fin S100000x1.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  gather_S100000x128_S50000x1_S50000x128_1_0_n_n_0_1_1128_wf : GatherDims.WF S100000x128 S50000x1 S50000x128 [1] [0] [] [0] [] 1 ![1, 128]
  dot_S2000x128_S128x128_S2000x128_1_0_0_1_n_n_wf : DotDims.WF S2000x128 S128x128 S2000x128 [1] [0] [0] [1] [] []
  dot_S2000x128_S128x64_S2000x64_1_0_0_1_n_n_wf : DotDims.WF S2000x128 S128x64 S2000x64 [1] [0] [0] [1] [] []
  gather_S50000x64_S100000x1_S100000x64_1_0_n_n_0_1_164_wf : GatherDims.WF S50000x64 S100000x1 S100000x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x64.size a ≤ S50000x64.size a
  hwx0_5 : ∀ i : grid0.Coords, EltTy.bits .f32 = 32 ∨ (Rect.block (s := S50000x64) S2000x64.size (cc0_transform_5 i) (hinb0_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def gather_S100000x128_S50000x1_S50000x128_1_0_n_n_0_1_1128 : GatherDims S100000x128 S50000x1 S50000x128 where
  offsetDims := [1]
  collapsedSliceDims := [0]
  operandBatchingDims := []
  startIndicesBatchingDims := []
  startIndexMap := [0]
  indexVectorDim := 1
  sliceSizes := ![1, 128]
  wf := gather_S100000x128_S50000x1_S50000x128_1_0_n_n_0_1_1128_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S50000x64_S100000x1_S100000x64_1_0_n_n_0_1_164 : GatherDims S50000x64 S100000x1 S100000x64 where
  offsetDims := [1]
  collapsedSliceDims := [0]
  operandBatchingDims := []
  startIndicesBatchingDims := []
  startIndexMap := [0]
  indexVectorDim := 1
  sliceSizes := ![1, 64]
  wf := gather_S50000x64_S100000x1_S100000x64_1_0_n_n_0_1_164_wf

abbrev win0_0 : Pipeline.Window sig grid0 :=
  Pipeline.Window.ofSpec (Memref.whole main_v36) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v37) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v39) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v38) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v40) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v41) S2000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S50000 : Shape := ⟨1, ![50000]⟩
abbrev S100000 : Shape := ⟨1, ![100000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x1600000 : Shape := ⟨2, ![1, 1600000]⟩
abbrev S_ : Shape := ⟨0, ![]⟩
abbrev S1600000x1 : Shape := ⟨2, ![1600000, 1]⟩
abbrev S1600000x128 : Shape := ⟨2, ![1600000, 128]⟩
abbrev S50000x1 : Shape := ⟨2, ![50000, 1]⟩
abbrev S50000x128 : Shape := ⟨2, ![50000, 128]⟩
abbrev S1x128 : Shape := ⟨2, ![1, 128]⟩
abbrev S128x64 : Shape := ⟨2, ![128, 64]⟩
abbrev S50000x64 : Shape := ⟨2, ![50000, 64]⟩
abbrev S1x64 : Shape := ⟨2, ![1, 64]⟩
abbrev S100000x1 : Shape := ⟨2, ![100000, 1]⟩
abbrev S100000x64 : Shape := ⟨2, ![100000, 64]⟩

abbrev nBuf : Space → Nat
  | .hbm => 91
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S50000, .i32⟩
  | .hbm, ⟨4, _⟩ => ⟨S100000, .i32⟩
  | .hbm, ⟨5, _⟩ => ⟨S128x128, .f32⟩
  | .hbm, ⟨6, _⟩ => ⟨S128, .f32⟩
  | .hbm, ⟨7, _⟩ => ⟨S64x128, .f32⟩
  | .hbm, ⟨8, _⟩ => ⟨S64, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x128, .f32⟩
  | .hbm, ⟨22, _⟩ => ⟨S1600000x1, .f32⟩
  | .hbm, ⟨23, _⟩ => ⟨S1600000x128, .f32⟩
  | .hbm, ⟨24, _⟩ => ⟨S1600000x128, .f32⟩
  | .hbm, ⟨25, _⟩ => ⟨S_, .f32⟩
  | .hbm, ⟨26, _⟩ => ⟨S100000x128, .f32⟩
  | .hbm, ⟨27, _⟩ => ⟨S1600000x1, .i32⟩
  | .hbm, ⟨28, _⟩ => ⟨S100000x128, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x128, .f32⟩
  | .hbm, ⟨38, _⟩ => ⟨S1600000x1, .f32⟩
  | .hbm, ⟨39, _⟩ => ⟨S1600000x128, .f32⟩
  | .hbm, ⟨40, _⟩ => ⟨S1600000x128, .f32⟩
  | .hbm, ⟨41, _⟩ => ⟨S_, .f32⟩
  | .hbm, ⟨42, _⟩ => ⟨S100000x128, .f32⟩
  | .hbm, ⟨43, _⟩ => ⟨S1600000x1, .i32⟩
  | .hbm, ⟨44, _⟩ => ⟨S100000x128, .f32⟩
  | .hbm, ⟨45, _⟩ => ⟨S_, .i32⟩
  | .hbm, ⟨46, _⟩ => ⟨S50000, .i32⟩
  | .hbm, ⟨47, _⟩ => ⟨S50000, .i1⟩
  | .hbm, ⟨48, _⟩ => ⟨S_, .i32⟩
  | .hbm, ⟨49, _⟩ => ⟨S50000, .i32⟩
  | .hbm, ⟨50, _⟩ => ⟨S50000, .i32⟩
  | .hbm, ⟨51, _⟩ => ⟨S50000, .i32⟩
  | .hbm, ⟨52, _⟩ => ⟨S50000x1, .i32⟩
  | .hbm, ⟨53, _⟩ => ⟨S50000x128, .f32⟩
  | .hbm, ⟨54, _⟩ => ⟨S128x128, .f32⟩
  | .hbm, ⟨55, _⟩ => ⟨S50000x128, .f32⟩
  | .hbm, ⟨56, _⟩ => ⟨S1x128, .f32⟩
  | .hbm, ⟨57, _⟩ => ⟨S50000x128, .f32⟩
  | .hbm, ⟨58, _⟩ => ⟨S50000x128, .f32⟩
  | .hbm, ⟨59, _⟩ => ⟨S_, .f32⟩
  | .hbm, ⟨60, _⟩ => ⟨S50000x128, .f32⟩
  | .hbm, ⟨61, _⟩ => ⟨S50000x128, .f32⟩
  | .hbm, ⟨62, _⟩ => ⟨S128x64, .f32⟩
  | .hbm, ⟨63, _⟩ => ⟨S50000x64, .f32⟩
  | .hbm, ⟨64, _⟩ => ⟨S1x64, .f32⟩
  | .hbm, ⟨65, _⟩ => ⟨S50000x64, .f32⟩
  | .hbm, ⟨66, _⟩ => ⟨S50000x64, .f32⟩
  | .hbm, ⟨67, _⟩ => ⟨S_, .i32⟩
  | .hbm, ⟨68, _⟩ => ⟨S100000, .i32⟩
  | .hbm, ⟨69, _⟩ => ⟨S100000, .i1⟩
  | .hbm, ⟨70, _⟩ => ⟨S_, .i32⟩
  | .hbm, ⟨71, _⟩ => ⟨S100000, .i32⟩
  | .hbm, ⟨72, _⟩ => ⟨S100000, .i32⟩
  | .hbm, ⟨73, _⟩ => ⟨S100000, .i32⟩
  | .hbm, ⟨74, _⟩ => ⟨S100000x1, .i32⟩
  | .hbm, ⟨75, _⟩ => ⟨S100000x64, .f32⟩
  | .hbm, ⟨76, _⟩ => ⟨S_, .f32⟩
  | .hbm, ⟨77, _⟩ => ⟨S100000, .f32⟩
  | .hbm, ⟨78, _⟩ => ⟨S_, .f32⟩
  | .hbm, ⟨79, _⟩ => ⟨S100000, .f32⟩
  | .hbm, ⟨80, _⟩ => ⟨S100000, .f32⟩
  | .hbm, ⟨81, _⟩ => ⟨S100000x1, .f32⟩
  | .hbm, ⟨82, _⟩ => ⟨S100000x64, .f32⟩
  | .hbm, ⟨83, _⟩ => ⟨S100000x64, .f32⟩
  | .hbm, ⟨84, _⟩ => ⟨S100000x64, .f32⟩
  | .hbm, ⟨85, _⟩ => ⟨S_, .f32⟩
  | .hbm, ⟨86, _⟩ => ⟨S100000, .f32⟩
  | .hbm, ⟨87, _⟩ => ⟨S100000x1, .f32⟩
  | .hbm, ⟨88, _⟩ => ⟨S100000x1, .f32⟩
  | .hbm, ⟨89, _⟩ => ⟨S100000x64, .f32⟩
  | .hbm, ⟨90, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_1 : Ref sig .tc := ⟨.hbm, 29, rfl⟩
abbrev main_v17 : Ref sig .tc := ⟨.hbm, 30, rfl⟩
abbrev main_v18 : Ref sig .tc := ⟨.hbm, 31, rfl⟩
abbrev main_c_2 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_4 : Ref sig .tc := ⟨.hbm, 45, rfl⟩
abbrev main_v30 : Ref sig .tc := ⟨.hbm, 46, rfl⟩
abbrev main_v31 : Ref sig .tc := ⟨.hbm, 47, rfl⟩
abbrev main_c_5 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_call0_cst : Ref sig .tc := ⟨.hbm, 59, rfl⟩
abbrev main_call0_v0 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_c_6 : Ref sig .tc := ⟨.hbm, 67, rfl⟩
abbrev main_v48 : Ref sig .tc := ⟨.hbm, 68, rfl⟩
abbrev main_v49 : Ref sig .tc := ⟨.hbm, 69, rfl⟩
abbrev main_c_7 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_call1_cst : Ref sig .tc := ⟨.hbm, 76, rfl⟩
abbrev main_call1_v0 : Ref sig .tc := ⟨.hbm, 77, rfl⟩
abbrev main_call1_cst_0 : Ref sig .tc := ⟨.hbm, 78, rfl⟩
abbrev main_call1_v1 : Ref sig .tc := ⟨.hbm, 79, rfl⟩
abbrev main_call1_v2 : Ref sig .tc := ⟨.hbm, 80, rfl⟩
abbrev main_call1_v3 : Ref sig .tc := ⟨.hbm, 81, rfl⟩
abbrev main_call1_v4 : Ref sig .tc := ⟨.hbm, 82, rfl⟩
abbrev main_call1_v5 : Ref sig .tc := ⟨.hbm, 83, rfl⟩
abbrev main_call1_v6 : Ref sig .tc := ⟨.hbm, 84, rfl⟩
abbrev main_call1_cst_1 : Ref sig .tc := ⟨.hbm, 85, rfl⟩
abbrev main_call1_v7 : Ref sig .tc := ⟨.hbm, 86, rfl⟩
abbrev main_call1_v8 : Ref sig .tc := ⟨.hbm, 87, rfl⟩
abbrev main_call1_v9 : Ref sig .tc := ⟨.hbm, 88, rfl⟩
abbrev main_call1_v10 : Ref sig .tc := ⟨.hbm, 89, rfl⟩
abbrev main_v55 : Ref sig .tc := ⟨.hbm, 90, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S_S50000 : S_.BroadcastsInDim S50000 (![] : Fin 0 → Fin S50000.rank)
  bcast_S50000_S50000x1_0 : S50000.BroadcastsInDim S50000x1 (![0] : Fin 1 → Fin S50000x1.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  transposes_S64x128_S128x64_1_0 : S64x128.Transposes [1, 0] S128x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S100000 : S_.BroadcastsInDim S100000 (![] : Fin 0 → Fin S100000.rank)
  bcast_S100000_S100000x1_0 : S100000.BroadcastsInDim S100000x1 (![0] : Fin 1 → Fin S100000x1.rank)
  reducesTo_S100000x64_S100000_d1 : S100000x64.ReducesTo [1] S100000
  h_S_ : 0 < S_.numel
  bcast_S100000x1_S100000x64_0_1 : S100000x1.BroadcastsInDim S100000x64 (![0, 1] : Fin 2 → Fin S100000x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  gather_S100000x128_S50000x1_S50000x128_1_0_n_n_0_1_1128_wf : GatherDims.WF S100000x128 S50000x1 S50000x128 [1] [0] [] [0] [] 1 ![1, 128]
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []
  gather_S50000x64_S100000x1_S100000x64_1_0_n_n_0_1_164_wf : GatherDims.WF S50000x64 S100000x1 S100000x64 [1] [0] [] [0] [] 1 ![1, 64]

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def gather_S100000x128_S50000x1_S50000x128_1_0_n_n_0_1_1128 : GatherDims S100000x128 S50000x1 S50000x128 where
  offsetDims := [1]
  collapsedSliceDims := [0]
  operandBatchingDims := []
  startIndicesBatchingDims := []
  startIndexMap := [0]
  indexVectorDim := 1
  sliceSizes := ![1, 128]
  wf := gather_S100000x128_S50000x1_S50000x128_1_0_n_n_0_1_1128_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S100000x1_S100000x64_1_0_n_n_0_1_164 : GatherDims S50000x64 S100000x1 S100000x64 where
  offsetDims := [1]
  collapsedSliceDims := [0]
  operandBatchingDims := []
  startIndicesBatchingDims := []
  startIndexMap := [0]
  indexVectorDim := 1
  sliceSizes := ![1, 64]
  wf := gather_S50000x64_S100000x1_S100000x64_1_0_n_n_0_1_164_wf

class Facts : Prop extends Facts₀ where

variable [Facts]
-- ==== Proof.RowLaw.lean ====
/-
  The one law this certificate rests on, and the finiteness bookkeeping around it.

  A row of logits `y : ι → EReal` whose entries are all real numbers has a log-softmax that does not depend on the
  shift used to stabilise it: for every real `m`,
      y j - (log (∑ k, exp (y k - m)) + m)   and   (y j - m) - log (0 + ∑ k, exp (y k - m))
  are both the real number `y j - log (∑ k, exp (y k))`. The first spelling subtracts the shifted log-sum-exp plus the
  shift; the second subtracts the shift first and the log-sum-exp after. On the extended reals the two differ when the
  shift is infinite (`-(a + b) = -a - b` fails at `⊤ + ⊥`), so the law is stated for real rows and a real shift, and the
  rest of this file shows that the values met on the way (sums, products, maxima of reals, a maximum folded from `⊥` over
  a nonempty row) are real.
-/
import Idealize.ShloMosaic.PureOps.Ideal
import Idealize.ShloMosaic.PureOps.Ideal.Laws
import Mathlib.Data.Finset.Fold

noncomputable section

open scoped BigOperators

namespace Cert.RowLaw

open Idealize.ShloMosaic

/-- An extended real that is a real number. -/
def IsReal (x : EReal) : Prop := ∃ r : ℝ, x = (r : EReal)

theorem isReal_coe (r : ℝ) : IsReal (r : EReal) := ⟨r, rfl⟩

theorem isReal_zero : IsReal 0 := ⟨0, EReal.coe_zero.symm⟩

theorem IsReal.ne_top {x : EReal} (h : IsReal x) : x ≠ ⊤ := by
  obtain ⟨r, rfl⟩ := h; exact EReal.coe_ne_top r

theorem IsReal.ne_bot {x : EReal} (h : IsReal x) : x ≠ ⊥ := by
  obtain ⟨r, rfl⟩ := h; exact EReal.coe_ne_bot r

theorem isReal_of_ne {x : EReal} (ht : x ≠ ⊤) (hb : x ≠ ⊥) : IsReal x :=
  ⟨x.toReal, (EReal.coe_toReal ht hb).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  rcases max_choice x y with h | h <;> rw [h] <;> assumption

/-- A finite sum of real numbers, taken in the extended reals, is a real number. -/
theorem IsReal.sum {ι : Type*} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- The maximum of a nonempty family of reals, folded from `⊥`, is a real number: it is below `⊤` because every
    entry is, and above `⊥` because some entry is. -/
theorem IsReal.fold_max {ι : Type*} (s : Finset ι) (hs : s.Nonempty) (f : ι → EReal) (h : ∀ i ∈ s, IsReal (f i)) :
    IsReal (s.fold Max.max ⊥ f) := by
  refine isReal_of_ne (lt_top_iff_ne_top.mp ?_) (bot_lt_iff_ne_bot.mp ?_)
  · exact (Finset.fold_max_lt _).mpr ⟨bot_lt_top, fun x hx => lt_top_iff_ne_top.mpr (h x hx).ne_top⟩
  · obtain ⟨a, ha⟩ := hs
    exact (Finset.lt_fold_max _).mpr (Or.inr ⟨a, ha, bot_lt_iff_ne_bot.mpr (h a ha).ne_bot⟩)

/-- A finite sum of coerced reals is the coerced sum. -/
theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- Over the reals, the shifted log-sum-exp plus the shift is the log-sum-exp. -/
theorem real_lse_shift {ι : Type*} [Fintype ι] [Nonempty ι] (y : ι → ℝ) (m : ℝ) :
    Real.log (∑ k, Real.exp (y k - m)) + m = Real.log (∑ k, Real.exp (y k)) := by
  have hpos : 0 < ∑ k, Real.exp (y k) := Finset.sum_pos (fun k _ => Real.exp_pos _) Finset.univ_nonempty
  have hsum : ∑ k, Real.exp (y k - m) = (∑ k, Real.exp (y k)) * Real.exp (-m) := by
    rw [Finset.sum_mul]
    exact Finset.sum_congr rfl fun k _ => by rw [sub_eq_add_neg, Real.exp_add]
  rw [hsum, Real.log_mul hpos.ne' (Real.exp_pos _).ne', Real.log_exp]
  ring

/-- The log-softmax of a row at `j`, as the real number it is when the row is real (entries read by `toReal`). -/
def lsm {ι : Type*} [Fintype ι] (y : ι → EReal) (j : ι) : EReal :=
  (((y j).toReal - Real.log (∑ k, Real.exp (y k).toReal) : ℝ) : EReal)

/-- The log of the shifted exponentials' sum, at the ideal values, over a real row and a real shift. -/
theorem log_sum_exp_shift {ι : Type*} [Fintype ι] [Nonempty ι] (y : ι → ℝ) (m : ℝ) :
    Ideal.log (∑ k, Ideal.exp ((y k : EReal) - (m : EReal))) = ((Real.log (∑ k, Real.exp (y k - m)) : ℝ) : EReal) := by
  have hpos : 0 < ∑ k, Real.exp (y k - m) := Finset.sum_pos (fun k _ => Real.exp_pos _) Finset.univ_nonempty
  have h1 : ∀ k, Ideal.exp ((y k : EReal) - (m : EReal)) = ((Real.exp (y k - m) : ℝ) : EReal) := fun k => by
    rw [← EReal.coe_sub, Ideal.exp_coe]
  simp only [h1]
  rw [coe_sum, Ideal.log_coe, if_neg (not_le.mpr hpos)]

/-- THE LAW, first spelling (the kernel's): the entry minus (the shifted log-sum-exp plus the shift). -/
theorem lsm_shift_after {ι : Type*} [Fintype ι] [Nonempty ι] (y : ι → EReal) (m : EReal) (hy : ∀ k, IsReal (y k))
    (hm : IsReal m) (j : ι) :
    y j - (Ideal.log (∑ k, Ideal.exp (y k - m)) + m) = lsm y j := by
  choose yr hyr using hy
  obtain ⟨mr, rfl⟩ := hm
  have hyf : y = fun k => ((yr k : ℝ) : EReal) := funext hyr
  subst hyf
  unfold lsm
  simp only [EReal.toReal_coe]
  rw [log_sum_exp_shift, ← EReal.coe_add, ← EReal.coe_sub, real_lse_shift]

/-- THE LAW, second spelling (the reference's): the shift subtracted first, then the log of zero plus the shifted
    exponentials' sum. -/
theorem lsm_shift_before {ι : Type*} [Fintype ι] [Nonempty ι] (y : ι → EReal) (m : EReal) (hy : ∀ k, IsReal (y k))
    (hm : IsReal m) (j : ι) :
    (y j - m) - Ideal.log (0 + ∑ k, Ideal.exp (y k - m)) = lsm y j := by
  choose yr hyr using hy
  obtain ⟨mr, rfl⟩ := hm
  have hyf : y = fun k => ((yr k : ℝ) : EReal) := funext hyr
  subst hyf
  unfold lsm
  simp only [EReal.toReal_coe]
  rw [zero_add, log_sum_exp_shift, ← EReal.coe_sub, ← EReal.coe_sub, ← real_lse_shift yr mr]
  congr 1
  ring

end Cert.RowLaw

end
-- ==== Proof.KernelPayload.lean ====
/-
  What the kernel body stores for one block of 2000 cluster rows, read at an index.

  The body's one payload `k0_pay1` is, as whole-block operations: the two matrix products with their biases and the relu
  between them (`blockLogits`: format changes are the identity at the ideal values, a product into a zero accumulator is
  the plain contraction), followed by the row-wise log-softmax in the spelling "entry minus (log of the shifted
  exponentials' sum, plus the shift)" with the row maximum as the shift (`softmaxTail`). At an index `(p, q)` of the
  block the first part is the textbook double sum, and — when row `p`'s logits are real numbers — the second is the
  log-softmax `Cert.RowLaw.lsm` of that row: the shift is a maximum of reals folded from `⊥` over a nonempty row, so
  it is real, and the row law applies.
-/
import proofs.«153025_j33208687133419_1_alg».proof.Proof.Gen.KernelIdeal.Skeleton
import proofs.«153025_j33208687133419_1_alg».proof.Proof.RowLaw
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic Idealize.ShloMosaic.ValueIdx Cert.RowLaw

/-! ## Two column layouts read at an index -/

/-- An `[a]` array cast to a column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The two matrix products read at an index -/

theorem lhs1_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs1_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs1_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs1_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The first product into its zero accumulator, at `(p, a)`: row `p` of the left operand against column `a` of the right. -/
theorem matmul1_apply (l : FVec Ideal S2000x128 .bf16) (r : FVec Ideal S128x128 .bf16) (p : Fin 2000) (a : Fin 128) :
    matmul dot_S2000x128_S128x128_S2000x128_1_0_0_1_n_n none l r (constant S2000x128 .f32 0x00000000#32) (ix2 p a)
      = ∑ k : Fin 128, l (ix2 p k) * r (ix2 k a) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p a) ((contrEquiv1 dot_S2000x128_S128x128_S2000x128_1_0_0_1_n_n 128 rfl rfl).symm k) = ix2 p k := funext fun ax => Fin.ext (by
    match ax with
    | ⟨0, _⟩ => exact lhs1_0 _ _
    | ⟨1, _⟩ => exact (lhs1_1 _ _).trans hk)
  have er : dot_S2000x128_S128x128_S2000x128_1_0_0_1_n_n.rhsIdx (ix2 p a) ((contrEquiv1 dot_S2000x128_S128x128_S2000x128_1_0_0_1_n_n 128 rfl rfl).symm k) = ix2 k a := funext fun ax => Fin.ext (by
    match ax with
    | ⟨0, _⟩ => exact (rhs1_0 _ _).trans hk
    | ⟨1, _⟩ => exact rhs1_1 _ _)
  rw [el, er]

theorem lhs2_0 (i : S2000x64.Idx) (q : dot_S2000x128_S128x64_S2000x64_1_0_0_1_n_n.contr.Idx) :
    (dot_S2000x128_S128x64_S2000x64_1_0_0_1_n_n.lhsIdx i q 0).val = (i 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl
theorem lhs2_1 (i : S2000x64.Idx) (q : dot_S2000x128_S128x64_S2000x64_1_0_0_1_n_n.contr.Idx) :
    (dot_S2000x128_S128x64_S2000x64_1_0_0_1_n_n.lhsIdx i q 1).val = (q ⟨0, by decide⟩).val :=
  dot_S2000x128_S128x64_S2000x64_1_0_0_1_n_n.lhsIdx_val_of_single rfl i q
theorem rhs2_0 (i : S2000x64.Idx) (q : dot_S2000x128_S128x64_S2000x64_1_0_0_1_n_n.contr.Idx) :
    (dot_S2000x128_S128x64_S2000x64_1_0_0_1_n_n.rhsIdx i q 0).val = (q ⟨0, by decide⟩).val :=
  dot_S2000x128_S128x64_S2000x64_1_0_0_1_n_n.rhsIdx_val_of_single rfl i q
theorem rhs2_1 (i : S2000x64.Idx) (q : dot_S2000x128_S128x64_S2000x64_1_0_0_1_n_n.contr.Idx) :
    (dot_S2000x128_S128x64_S2000x64_1_0_0_1_n_n.rhsIdx i q 1).val = (i 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl

/-- The second product into its zero accumulator, at `(p, j)`. -/
theorem matmul2_apply (l : FVec Ideal S2000x128 .bf16) (r : FVec Ideal S128x64 .bf16) (p : Fin 2000) (j : Fin 64) :
    matmul dot_S2000x128_S128x64_S2000x64_1_0_0_1_n_n none l r (constant S2000x64 .f32 0x00000000#32) (ix2 p j)
      = ∑ k : Fin 128, l (ix2 p k) * r (ix2 k j) := by
  simp only [matmul]
  rw [Ideal.matmul_constant_zero_apply, ← Equiv.sum_comp (contrEquiv1 dot_S2000x128_S128x64_S2000x64_1_0_0_1_n_n 128 rfl rfl).symm]
  refine Finset.sum_congr rfl fun k _ => ?_
  have hk := contrEquiv1_symm_val dot_S2000x128_S128x64_S2000x64_1_0_0_1_n_n 128 rfl rfl k
  have el : dot_S2000x128_S128x64_S2000x64_1_0_0_1_n_n.lhsIdx (ix2 p j) ((contrEquiv1 dot_S2000x128_S128x64_S2000x64_1_0_0_1_n_n 128 rfl rfl).symm k) = ix2 p k := funext fun ax => Fin.ext (by
    match ax with
    | ⟨0, _⟩ => exact lhs2_0 _ _
    | ⟨1, _⟩ => exact (lhs2_1 _ _).trans hk)
  have er : dot_S2000x128_S128x64_S2000x64_1_0_0_1_n_n.rhsIdx (ix2 p j) ((contrEquiv1 dot_S2000x128_S128x64_S2000x64_1_0_0_1_n_n 128 rfl rfl).symm k) = ix2 k j := funext fun ax => Fin.ext (by
    match ax with
    | ⟨0, _⟩ => exact (rhs2_0 _ _).trans hk
    | ⟨1, _⟩ => exact rhs2_1 _ _)
  rw [el, er]

/-! ## The block's logits -/

/-- The hidden layer of the block, as the body computes it from the loaded blocks: `x0` the cluster rows, `x1` the
    first weight matrix (inputs down, units across), `x2` its bias as one row. -/
def blockHidden (x0 : Vec Ideal S2000x128 .f32) (x1 : Vec Ideal S128x128 .f32) (x2 : Vec Ideal S1x128 .f32) :
    FVec Ideal S2000x128 .f32 :=
  maximumf
    (addf
      (matmul dot_S2000x128_S128x128_S2000x128_1_0_0_1_n_n none (truncf .bf16 (shapeCast S2000x128 x0 shapeCasts_S2000x128_S2000x128) bitsLt_bf16_f32)
        (truncf .bf16 (shapeCast S128x128 x1 shapeCasts_S128x128_S128x128) bitsLt_bf16_f32) (constant S2000x128 .f32 0x00000000#32))
      (broadcastTo S2000x128 (shapeCast S1x128 x2 shapeCasts_S1x128_S1x128) broadcasts_S1x128_S2000x128))
    (broadcast S2000x128 (Scalar.ofBits .f32 0x00000000#32))

/-- The block's logits: the hidden layer against `x3` (units down, classes across) plus the bias row `x4`. -/
def blockLogits (x0 : Vec Ideal S2000x128 .f32) (x1 : Vec Ideal S128x128 .f32) (x2 : Vec Ideal S1x128 .f32)
    (x3 : Vec Ideal S128x64 .f32) (x4 : Vec Ideal S1x64 .f32) : FVec Ideal S2000x64 .f32 :=
  addf
    (matmul dot_S2000x128_S128x64_S2000x64_1_0_0_1_n_n none (truncf .bf16 (blockHidden x0 x1 x2) bitsLt_bf16_f32)
      (truncf .bf16 (shapeCast S128x64 x3 shapeCasts_S128x64_S128x64) bitsLt_bf16_f32) (constant S2000x64 .f32 0x00000000#32))
    (broadcastTo S2000x64 (shapeCast S1x64 x4 shapeCasts_S1x64_S1x64) broadcasts_S1x64_S2000x64)

/-- Each row's maximum, as the body takes it: a reduction over the class axis seeded with `-∞`. -/
def rowMaxV (y : FVec Ideal S2000x64 .f32) : FVec Ideal S2000 .f32 :=
  multiReduction .maximumf [1] S2000 y 0xFF800000#32 reduces_S2000x64_S2000 (.inl rfl) rfl

/-- Each row's sum, as the body takes it: a reduction over the class axis from zero. -/
def rowSumV (w : FVec Ideal S2000x64 .f32) : FVec Ideal S2000 .f32 :=
  multiReduction .add [1] S2000 w 0x00000000#32 reduces_S2000x64_S2000 (.inl rfl) rfl

/-- The reduced index `p` with class `k` put back is `(p, k)`. -/
theorem lift_eq (p : Fin 2000) (k : Fin 64) : reduces_S2000x64_S2000.lift (ix1 p) k = ix2 p k :=
  funext fun a => Fin.ext (by match a with | ⟨0, _⟩ => rfl | ⟨1, _⟩ => rfl)

theorem max_reduction_real (y : FVec Ideal S2000x64 .f32) (p : Fin 2000) (hφ : FKind.Formats .f32)
    (hacc : (0xFF800000#32 : BitVec 32) = FKind.maximumf.neutral .f32 hφ) (hy : ∀ k : Fin 64, IsReal (y (ix2 p k))) :
    IsReal (multiReduction (F := Ideal) .maximumf [1] S2000 y 0xFF800000#32 reduces_S2000x64_S2000 hφ hacc (ix1 p)) := by
  have hbot : (FloatOps.ofBits (F := Ideal) .f32 0xFF800000#32 : EReal) = ⊥ := by
    show Ideal.ofBits .f32 0xFF800000#32 = ⊥
    simp [Ideal.ofBits, Ideal.ieee]
  rw [Ideal.multiReduction_maximumf_single, hbot]
  exact IsReal.fold_max _ ⟨(⟨0, by decide⟩ : Fin (S2000x64.size 1)), Finset.mem_univ _⟩ _ fun k _ => by
    show IsReal (y (reduces_S2000x64_S2000.lift (ix1 p) k))
    rw [lift_eq p k]; exact hy k

theorem add_reduction_apply (w : FVec Ideal S2000x64 .f32) (p : Fin 2000) (hφ : FKind.Formats .f32)
    (hacc : (0x00000000#32 : BitVec 32) = FKind.add.neutral .f32 hφ) :
    multiReduction (F := Ideal) .add [1] S2000 w 0x00000000#32 reduces_S2000x64_S2000 hφ hacc (ix1 p) = ∑ k : Fin 64, w (ix2 p k) := by
  rw [Ideal.multiReduction_add_single]
  exact Finset.sum_congr rfl fun k _ => congrArg w (lift_eq p k)

/-- The maximum of a row of reals is real: folded from `-∞ = ⊥` over the row's 64 entries. -/
theorem rowMaxV_real (y : FVec Ideal S2000x64 .f32) (p : Fin 2000) (hy : ∀ k : Fin 64, IsReal (y (ix2 p k))) :
    IsReal (rowMaxV y (ix1 p)) := by
  unfold rowMaxV
  exact max_reduction_real y p _ _ hy

/-- A row's sum at `p` is the sum over the classes. -/
theorem rowSumV_apply (w : FVec Ideal S2000x64 .f32) (p : Fin 2000) : rowSumV w (ix1 p) = ∑ k : Fin 64, w (ix2 p k) := by
  unfold rowSumV
  exact add_reduction_apply w p _ _

/-- The row-wise log-softmax as the body spells it, over any block of logits `y`. -/
def softmaxTail (y : FVec Ideal S2000x64 .f32) : FVec Ideal S2000x64 .f32 :=
  have v23 : FVec Ideal S2000x1 .f32 := shapeCast S2000x1 (rowMaxV y) shapeCasts_S2000_S2000x1
  have v24 : FVec Ideal S2000x64 .f32 := broadcastTo S2000x64 v23 broadcasts_S2000x1_S2000x64
  have v25 : FVec Ideal S2000x64 .f32 := subf y v24
  have v26 : FVec Ideal S2000x64 .f32 := exp v25
  have v28 : FVec Ideal S2000x1 .f32 := shapeCast S2000x1 (rowSumV v26) shapeCasts_S2000_S2000x1
  have v29 : FVec Ideal S2000x1 .f32 := log v28
  have v30 : FVec Ideal S2000x1 .f32 := addf v29 v23
  have v31 : FVec Ideal S2000x64 .f32 := broadcastTo S2000x64 v30 broadcasts_S2000x1_S2000x64
  subf y v31

/-- The payload is the tail applied to the block's logits: the two definitions spell the body's operations in order. -/
theorem pay_eq (x0 : Vec Ideal S2000x128 .f32) (x1 : Vec Ideal S128x128 .f32) (x2 : Vec Ideal S1x128 .f32)
    (x3 : Vec Ideal S128x64 .f32) (x4 : Vec Ideal S1x64 .f32) :
    k0_pay1 (F := Ideal) x0 x1 x2 x3 x4 = softmaxTail (blockLogits x0 x1 x2 x3 x4) := rfl

/-- The hidden layer at `(p, a)`: the relu of row `p` against column `a` plus the bias. -/
theorem blockHidden_apply (x0 : Vec Ideal S2000x128 .f32) (x1 : Vec Ideal S128x128 .f32) (x2 : Vec Ideal S1x128 .f32)
    (p : Fin 2000) (a : Fin 128) :
    blockHidden x0 x1 x2 (ix2 p a) = max ((∑ l : Fin 128, x0 (ix2 p l) * x1 (ix2 l a)) + x2 (ix2 (0 : Fin 1) a)) 0 := by
  unfold blockHidden
  rw [maximumf_apply, addf_apply, matmul1_apply, broadcastTo_1b_ab_apply, shapeCast_self, broadcast_apply]
  simp only [truncf_apply, shapeCast_self]
  show max _ (Ideal.ofBits .f32 0x00000000#32) = _
  rw [Ideal.ofBits_zero_f32]

/-- The logits at `(p, j)`. -/
theorem blockLogits_apply (x0 : Vec Ideal S2000x128 .f32) (x1 : Vec Ideal S128x128 .f32) (x2 : Vec Ideal S1x128 .f32)
    (x3 : Vec Ideal S128x64 .f32) (x4 : Vec Ideal S1x64 .f32) (p : Fin 2000) (j : Fin 64) :
    blockLogits x0 x1 x2 x3 x4 (ix2 p j)
      = (∑ a : Fin 128, max ((∑ l : Fin 128, x0 (ix2 p l) * x1 (ix2 l a)) + x2 (ix2 (0 : Fin 1) a)) 0 * x3 (ix2 a j))
        + x4 (ix2 (0 : Fin 1) j) := by
  unfold blockLogits
  rw [addf_apply, matmul2_apply, broadcastTo_1b_ab_apply, shapeCast_self]
  simp only [truncf_apply, shapeCast_self, blockHidden_apply]

/-- THE TAIL AT AN INDEX: over a row of real logits, the body's spelling is the row's log-softmax. -/
theorem softmaxTail_apply (y : FVec Ideal S2000x64 .f32) (p : Fin 2000) (q : Fin 64)
    (hy : ∀ k : Fin 64, IsReal (y (ix2 p k))) :
    softmaxTail y (ix2 p q) = lsm (fun k : Fin 64 => y (ix2 p k)) q := by
  have hm : IsReal (rowMaxV y (ix1 p)) := rowMaxV_real y p hy
  unfold softmaxTail
  generalize rowMaxV y = M at hm ⊢
  rw [subf_apply, broadcastTo_a1_ab_apply, addf_apply, shapeCast_a_a1_apply]
  show y (ix2 p q) - (Ideal.log (shapeCast S2000x1 (rowSumV _) shapeCasts_S2000_S2000x1 (ix2 p (0 : Fin 1))) + M (ix1 p)) = _
  rw [shapeCast_a_a1_apply, rowSumV_apply]
  have hsum : ∀ k : Fin 64, (exp (subf y (broadcastTo S2000x64 (shapeCast S2000x1 M shapeCasts_S2000_S2000x1) broadcasts_S2000x1_S2000x64))) (ix2 p k)
      = Ideal.exp (y (ix2 p k) - M (ix1 p)) := fun k => by
    show Ideal.exp (y (ix2 p k) - broadcastTo S2000x64 (shapeCast S2000x1 M shapeCasts_S2000_S2000x1) broadcasts_S2000x1_S2000x64 (ix2 p k)) = _
    rw [broadcastTo_a1_ab_apply, shapeCast_a_a1_apply]
  simp only [hsum]
  exact lsm_shift_after (fun k : Fin 64 => y (ix2 p k)) (M (ix1 p)) hy hm q

/-- THE PAYLOAD AT AN INDEX, for a block whose row `p` has real logits. -/
theorem pay_apply (x0 : Vec Ideal S2000x128 .f32) (x1 : Vec Ideal S128x128 .f32) (x2 : Vec Ideal S1x128 .f32)
    (x3 : Vec Ideal S128x64 .f32) (x4 : Vec Ideal S1x64 .f32) (p : Fin 2000) (q : Fin 64)
    (hy : ∀ k : Fin 64, IsReal (blockLogits x0 x1 x2 x3 x4 (ix2 p k))) :
    k0_pay1 (F := Ideal) x0 x1 x2 x3 x4 (ix2 p q) = lsm (fun k : Fin 64 => blockLogits x0 x1 x2 x3 x4 (ix2 p k)) q := by
  rw [pay_eq]
  exact softmaxTail_apply _ p q hy

end Cert.KernelIdeal.Payload

end
-- ==== Proof.KernelOperands.lean ====
/-
  The host values around the kernel's region, for any float family.

  Before the region @main transposes the two weight matrices and reshapes the two biases to one row each; these are the
  four small operands the region stages whole. After the region it gathers rows of the region's result array by the
  cluster index (a negative index wrapped by 50000 first). Both are read off the operation lists by their results.
-/
import proofs.«153025_j33208687133419_1_alg».proof.Proof.Gen.KernelIdeal.Frame
import Idealize.ShloMosaic.Lib.StableHlo.Run
import Idealize.ShloMosaic.Lib.Tactic

noncomputable section

open Idealize.ShloMosaic Idealize.ShloMosaic.TcCoe Idealize.SL.Sem Idealize.ShloMosaic.StableHlo
open Idealize.ShloMosaic.Pipeline (Dat)

namespace Cert.KernelIdeal.Operands

open Cert.KernelIdeal Cert.KernelIdeal.Gen

variable {F : FTy → Type} [FloatOps F]
variable (m : (ℓ : Loc nD τ sig) → Buf (Elt F) ℓ)

/-- The first weight matrix reaches the region transposed. -/
theorem V_w1t (c : Dev nD) : (V m c main_v37 : (⟨S128x128, .f32⟩ : BufTy).Contents (Elt F))
    = transpose S128x128 [1, 0] (m ((c.tc : Thread nD τ).loc main_arg5)) transposes_S128x128_S128x128_1_0 := by
  dsimp only [Gen.V, Gen.V0]
  simp only [hostOps0, List.flatten_cons, List.flatten_nil, List.append_nil]
  after_results_simp

/-- The second weight matrix reaches the region transposed. -/
theorem V_w2t (c : Dev nD) : (V m c main_v38 : (⟨S128x64, .f32⟩ : BufTy).Contents (Elt F))
    = transpose S128x64 [1, 0] (m ((c.tc : Thread nD τ).loc main_arg7)) transposes_S64x128_S128x64_1_0 := by
  dsimp only [Gen.V, Gen.V0]
  simp only [hostOps0, List.flatten_cons, List.flatten_nil, List.append_nil]
  after_results_simp

/-- The first bias reaches the region as one row. -/
theorem V_b1r (c : Dev nD) : (V m c main_v39 : (⟨S1x128, .f32⟩ : BufTy).Contents (Elt F))
    = shapeCast S1x128 (m ((c.tc : Thread nD τ).loc main_arg6)) shapeCasts_S128_S1x128 := by
  dsimp only [Gen.V, Gen.V0]
  simp only [hostOps0, List.flatten_cons, List.flatten_nil, List.append_nil]
  after_results_simp
  rfl

/-- The second bias reaches the region as one row. -/
theorem V_b2r (c : Dev nD) : (V m c main_v40 : (⟨S1x64, .f32⟩ : BufTy).Contents (Elt F))
    = shapeCast S1x64 (m ((c.tc : Thread nD τ).loc main_arg8)) shapeCasts_S64_S1x64 := by
  dsimp only [Gen.V, Gen.V0]
  simp only [hostOps0, List.flatten_cons, List.flatten_nil, List.append_nil]
  after_results_simp
  rfl

/-! ## After the region: the row gather -/

/-- The gather's start indices from the cluster index: a negative entry is wrapped by 50000 (the gather itself clamps). -/
def ciIdx (x4 : (⟨S100000, .i32⟩ : BufTy).Contents (Elt F)) : (⟨S100000x1, .i32⟩ : BufTy).Contents (Elt F) :=
  broadcastInDim S100000x1 ![0] bcast_S100000_S100000x1_0
    (select (cmpi .slt x4 (broadcastInDim S100000 ![] bcast_S_S100000 (constantI S_ 32 0#32)))
      (addi x4 (broadcastInDim S100000 ![] bcast_S_S100000 (constantI S_ 32 50000#32))) x4)

/-- What @main returns, for any proof data of the region: the rows of the region's result array, as the data say it
    ends, gathered by the cluster index. -/
theorem tail_eq (dats : (p : Fin 1) → (c : Dev nD) → Dat τ (Elt F) Unit ℕ (UR sig nD τ) ℕ (cfgs p) c) (c : Dev nD) :
    (Pipeline.afterTail₀ cfgs dats 0 (V0 m) [hostOps1] c main_v48 : (⟨S100000x64, .f32⟩ : BufTy).Contents (Elt F))
      = Host.gather gather_S50000x64_S100000x1_S100000x64_1_0_n_n_0_1_164 ((dats 0 c).arrAt 5 cfg0.N)
          (ciIdx (m ((c.tc : Thread nD τ).loc main_arg4))) := by
  unfold Pipeline.afterTail₀
  simp only [hostOps1, List.flatten_cons, List.flatten_nil, List.append_nil]
  after_results_simp
  have h41 : Pipeline.withArrays (cfgs 0).spec c (V0 m c) (fun w => (dats 0 c).arrAt w (cfgs 0).N) (Proc.devRef .tc main_v41)
      = (dats 0 c).arrAt 5 (cfgs 0).N :=
    Pipeline.withArrays_arr (cfgs 0).spec launch0.win.arr_inj c (V0 m c) (fun w => (dats 0 c).arrAt w (cfgs 0).N) 5
  have h4 : Pipeline.withArrays (cfgs 0).spec c (V0 m c) (fun w => (dats 0 c).arrAt w (cfgs 0).N) (Proc.devRef .tc main_arg4)
      = m ((c.tc : Thread nD τ).loc main_arg4) :=
    (Pipeline.withArrays_of_ne _ c (V0 m c) _ main_arg4 (by exact (by decide : ∀ w, Pipeline.arrRef spec0 w ≠ main_arg4))).trans
      (V_main_arg4 m c)
  rw [h41, h4]
  unfold ciIdx
  rfl

end Cert.KernelIdeal.Operands

end
-- ==== Proof.Spec.lean ====
/-
  What both programs compute after the shared propagation, as functions of the gathered cluster rows `hc : [50000, 128]`
  and the weights, index by index over the extended reals:

    hidden r a = max (∑ l, hc (r, l) · W1 (a, l) + b1 a) 0            -- the first layer with its relu
    logits r j = ∑ a, hidden r a · W2 (j, a) + b2 j                    -- the second layer
    rows (r, j) = log-softmax of the row `logits r` at `j`             -- Cert.RowLaw.lsm

  The weights are read as given (`W1 : [128, 128]`, `W2 : [64, 128]`, each row an output unit): both programs transpose
  them before multiplying. When `hc` and the weights are real numbers so is every logit, which is what the row law needs.
-/
import proofs.«153025_j33208687133419_1_alg».proof.Proof.RowLaw
import Idealize.ShloMosaic.Lib.ValueIdx

noncomputable section

open scoped BigOperators

namespace Cert.Spec

open Idealize.ShloMosaic Idealize.ShloMosaic.ValueIdx Cert.RowLaw

/-- Cluster row `r`'s hidden unit `a`: the relu of the row's product with `W1`'s row `a`, plus the bias. -/
def hidden (hc : (⟨2, ![50000, 128]⟩ : Shape).Idx → EReal) (W1 : (⟨2, ![128, 128]⟩ : Shape).Idx → EReal)
    (b1 : (⟨1, ![128]⟩ : Shape).Idx → EReal) (r : Fin 50000) (a : Fin 128) : EReal :=
  max ((∑ l : Fin 128, hc (ix2 r l) * W1 (ix2 a l)) + b1 (ix1 a)) 0

/-- Cluster row `r`'s logit `j`: the hidden row's product with `W2`'s row `j`, plus the bias. -/
def logits (hc : (⟨2, ![50000, 128]⟩ : Shape).Idx → EReal) (W1 : (⟨2, ![128, 128]⟩ : Shape).Idx → EReal)
    (b1 : (⟨1, ![128]⟩ : Shape).Idx → EReal) (W2 : (⟨2, ![64, 128]⟩ : Shape).Idx → EReal)
    (b2 : (⟨1, ![64]⟩ : Shape).Idx → EReal) (r : Fin 50000) (j : Fin 64) : EReal :=
  (∑ a : Fin 128, hidden hc W1 b1 r a * W2 (ix2 j a)) + b2 (ix1 j)

/-- The normalised cluster rows: row `r` is the log-softmax of `logits r`. -/
def rows (hc : (⟨2, ![50000, 128]⟩ : Shape).Idx → EReal) (W1 : (⟨2, ![128, 128]⟩ : Shape).Idx → EReal)
    (b1 : (⟨1, ![128]⟩ : Shape).Idx → EReal) (W2 : (⟨2, ![64, 128]⟩ : Shape).Idx → EReal)
    (b2 : (⟨1, ![64]⟩ : Shape).Idx → EReal) : (⟨2, ![50000, 64]⟩ : Shape).Idx → EReal :=
  fun i => lsm (logits hc W1 b1 W2 b2 ⟨(i 0).val, idx2_lt0 i⟩) ⟨(i 1).val, idx2_lt1 i⟩

theorem rows_apply (hc : (⟨2, ![50000, 128]⟩ : Shape).Idx → EReal) (W1 : (⟨2, ![128, 128]⟩ : Shape).Idx → EReal)
    (b1 : (⟨1, ![128]⟩ : Shape).Idx → EReal) (W2 : (⟨2, ![64, 128]⟩ : Shape).Idx → EReal)
    (b2 : (⟨1, ![64]⟩ : Shape).Idx → EReal) (r : Fin 50000) (j : Fin 64) :
    rows hc W1 b1 W2 b2 (ix2 r j) = lsm (logits hc W1 b1 W2 b2 r) j := rfl

section Real

variable {hc : (⟨2, ![50000, 128]⟩ : Shape).Idx → EReal} {W1 : (⟨2, ![128, 128]⟩ : Shape).Idx → EReal}
  {b1 : (⟨1, ![128]⟩ : Shape).Idx → EReal} {W2 : (⟨2, ![64, 128]⟩ : Shape).Idx → EReal}
  {b2 : (⟨1, ![64]⟩ : Shape).Idx → EReal}

/-- Real rows and real first-layer weights give real hidden units. -/
theorem hidden_real (hhc : ∀ i, IsReal (hc i)) (hW1 : ∀ i, IsReal (W1 i)) (hb1 : ∀ i, IsReal (b1 i)) (r : Fin 50000)
    (a : Fin 128) : IsReal (hidden hc W1 b1 r a) :=
  IsReal.max ((IsReal.sum _ _ fun l _ => (hhc _).mul (hW1 _)).add (hb1 _)) isReal_zero

/-- … and, with real second-layer weights, real logits. -/
theorem logits_real (hhc : ∀ i, IsReal (hc i)) (hW1 : ∀ i, IsReal (W1 i)) (hb1 : ∀ i, IsReal (b1 i))
    (hW2 : ∀ i, IsReal (W2 i)) (hb2 : ∀ i, IsReal (b2 i)) (r : Fin 50000) (j : Fin 64) :
    IsReal (logits hc W1 b1 W2 b2 r j) :=
  (IsReal.sum _ _ fun a _ => (hidden_real hhc hW1 hb1 r a).mul (hW2 _)).add (hb2 _)

end Real

end Cert.Spec

end
-- ==== Proof.KernelArray.lean ====
/-
  From the kernel's blocks to its result array, and through the row gather that follows the region.

  The region runs over 25 grid points; point `t` reads rows `2000 t … 2000 t + 1999` of the gathered cluster rows
  `hc = V main_v36` and the four small operands whole, and writes back rows `2000 t … 2000 t + 1999` of the result
  `[50000, 64]`. Row `p` of block `t` holds the log-softmax of the logits of cluster row `2000 t + p`
  (Cert.KernelIdeal.Payload), so — the blocks tiling the array — the array ends holding `Cert.Spec.rows` of `hc` and the
  weights, provided `hc` and the weights are real. The operands the region finds are host values: the weights transposed,
  the biases reshaped to one row. After the region @main gathers rows of that array by the cluster index.
-/
import proofs.«153025_j33208687133419_1_alg».proof.Proof.Gen.KernelIdeal.Frame
import proofs.«153025_j33208687133419_1_alg».proof.Proof.KernelPayload
import proofs.«153025_j33208687133419_1_alg».proof.Proof.KernelOperands
import proofs.«153025_j33208687133419_1_alg».proof.Proof.Spec
import Idealize.ShloMosaic.Lib.Pipeline.Value
import Idealize.ShloMosaic.Lib.ValueLayout
import Idealize.ShloMosaic.Lib.StableHlo.Run
import Idealize.ShloMosaic.Lib.Tactic

set_option maxRecDepth 16384

noncomputable section

open scoped BigOperators

open Idealize.ShloMosaic Idealize.ShloMosaic.TcCoe Idealize.SL.Sem
open Idealize.ShloMosaic.Pipeline (Dat)

namespace Cert.KernelIdeal.Hand

open Cert.KernelIdeal Cert.KernelIdeal.Gen Cert.KernelIdeal.Payload Cert.KernelIdeal.Operands Idealize.ShloMosaic.ValueIdx Cert.RowLaw

variable (m : (ℓ : Loc nD τ sig) → Buf (Elt Ideal) ℓ) (ρ : Dev nD → PrngReg)

theorem hz : (![0, 0] : Fin 2 → Nat) = fun _ => 0 := funext fun a => by fin_cases a <;> rfl

/-! ## The operands as the region finds them -/

/-- The gathered cluster rows. -/
abbrev hcArr (c : Dev nD) : Vec Ideal S50000x128 .f32 := V m c main_v36
/-- The weights and biases as launched. -/
abbrev w1Arr (c : Dev nD) : Vec Ideal S128x128 .f32 := m ((c : Thread nD τ).loc main_arg5)
abbrev b1Arr (c : Dev nD) : Vec Ideal S128 .f32 := m ((c : Thread nD τ).loc main_arg6)
abbrev w2Arr (c : Dev nD) : Vec Ideal S64x128 .f32 := m ((c : Thread nD τ).loc main_arg7)
abbrev b2Arr (c : Dev nD) : Vec Ideal S64 .f32 := m ((c : Thread nD τ).loc main_arg8)

/-! ## Which rows a point's blocks are -/

/-- The printed index maps, decided once over the grid: the cluster rows' and the result's block index is the point, the
    four small operands' is zero; and the grid has 25 points. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 ∧ t.val < 25 :=
  (by decide +kernel : ∀ t : Fin grid0.N, _)

/-- Every block row is SOME point's: block row `b` is point `b`'s. -/
theorem idx_onto : ∀ b : Fin 25, ∃ t : Fin cfg0.N, win0_5.index t (0 : Fin 2) = b.val ∧ win0_5.index t (1 : Fin 2) = 0 :=
  (by decide +kernel : ∀ b : Fin 25, ∃ t : Fin grid0.N, win0_5.index t (0 : Fin 2) = b.val ∧ win0_5.index t (1 : Fin 2) = 0)

/-- Row `p` of point `t`'s block is cluster row `2000 t + p`. -/
def rowOf (t : Fin cfg0.N) (p : Fin 2000) : Fin 50000 :=
  ⟨2000 * t.val + p.val, by have := (idx_facts t).2.2.2.2.2.2.2.2.2.2.2.2; have := p.isLt; omega⟩

/-! ## The input blocks, read at an index -/

/-- Block `t` of the cluster rows' window, read off ANY array of that shape: rows `2000 t …`. -/
theorem read0 (A : Vec Ideal S50000x128 .f32) (t : Fin cfg0.N) (p : Fin 2000) (l : Fin 128) :
    (((cfg0.win 0).blk t).view.read (Elt Ideal) A : Vec Ideal S2000x128 .f32) (ix2 p l) = A (ix2 (rowOf t p) l) := by
  obtain ⟨e0, e1, -⟩ := idx_facts t
  rw [View.read_apply]
  refine congrArg A ?_
  funext a
  apply Fin.ext
  match a with
  | ⟨0, _⟩ => show win0_0.index t 0 * 2000 + 1 * p.val = 2000 * t.val + p.val; rw [e0]; omega
  | ⟨1, _⟩ => show win0_0.index t 1 * 128 + 1 * l.val = l.val; rw [e1]; omega

/-- The four small windows' one block is the whole array, at every point. -/
theorem read1 (A : Vec Ideal S128x128 .f32) (t : Fin cfg0.N) (l a : Fin 128) :
    (((cfg0.win 1).blk t).view.read (Elt Ideal) A : Vec Ideal S128x128 .f32) (ix2 l a) = A (ix2 l a) := by
  obtain ⟨-, -, e0, e1, -⟩ := idx_facts t
  rw [View.read_apply]
  refine congrArg A ?_
  funext ax
  apply Fin.ext
  match ax with
  | ⟨0, _⟩ => show win0_1.index t 0 * 128 + 1 * l.val = l.val; rw [e0]; omega
  | ⟨1, _⟩ => show win0_1.index t 1 * 128 + 1 * a.val = a.val; rw [e1]; omega

theorem read2 (A : Vec Ideal S1x128 .f32) (t : Fin cfg0.N) (a : Fin 128) :
    (((cfg0.win 2).blk t).view.read (Elt Ideal) A : Vec Ideal S1x128 .f32) (ix2 (0 : Fin 1) a) = A (ix2 (0 : Fin 1) a) := by
  obtain ⟨-, -, -, -, e0, e1, -⟩ := idx_facts t
  rw [View.read_apply]
  refine congrArg A ?_
  funext ax
  apply Fin.ext
  match ax with
  | ⟨0, _⟩ => show win0_2.index t 0 * 1 + 1 * 0 = 0; rw [e0]
  | ⟨1, _⟩ => show win0_2.index t 1 * 128 + 1 * a.val = a.val; rw [e1]; omega

theorem read3 (A : Vec Ideal S128x64 .f32) (t : Fin cfg0.N) (a : Fin 128) (j : Fin 64) :
    (((cfg0.win 3).blk t).view.read (Elt Ideal) A : Vec Ideal S128x64 .f32) (ix2 a j) = A (ix2 a j) := by
  obtain ⟨-, -, -, -, -, -, e0, e1, -⟩ := idx_facts t
  rw [View.read_apply]
  refine congrArg A ?_
  funext ax
  apply Fin.ext
  match ax with
  | ⟨0, _⟩ => show win0_3.index t 0 * 128 + 1 * a.val = a.val; rw [e0]; omega
  | ⟨1, _⟩ => show win0_3.index t 1 * 64 + 1 * j.val = j.val; rw [e1]; omega

theorem read4 (A : Vec Ideal S1x64 .f32) (t : Fin cfg0.N) (j : Fin 64) :
    (((cfg0.win 4).blk t).view.read (Elt Ideal) A : Vec Ideal S1x64 .f32) (ix2 (0 : Fin 1) j) = A (ix2 (0 : Fin 1) j) := by
  obtain ⟨-, -, -, -, -, -, -, -, e0, e1, -⟩ := idx_facts t
  rw [View.read_apply]
  refine congrArg A ?_
  funext ax
  apply Fin.ext
  match ax with
  | ⟨0, _⟩ => show win0_4.index t 0 * 1 + 1 * 0 = 0; rw [e0]
  | ⟨1, _⟩ => show win0_4.index t 1 * 64 + 1 * j.val = j.val; rw [e1]; omega

/-- The cluster rows' block at point `t`: rows `2000 t …` of the array. -/
theorem blk0_apply (c : Dev nD) (t : Fin cfg0.N) (p : Fin 2000) (l : Fin 128) :
    (iblk m c 0 t : Vec Ideal S2000x128 .f32) (ix2 p l) = hcArr m c (ix2 (rowOf t p) l) :=
  read0 (hcArr m c) t p l

/-- The first weight block is the whole transposed matrix: at `(l, a)` the weight of input `l` into unit `a`. -/
theorem blk1_apply (c : Dev nD) (t : Fin cfg0.N) (l a : Fin 128) :
    (iblk m c 1 t : Vec Ideal S128x128 .f32) (ix2 l a) = w1Arr m c (ix2 a l) :=
  (read1 (V m c main_v37) t l a).trans
    ((congrFun (V_w1t m c) (ix2 l a)).trans (transpose_ix2_apply (w1Arr m c) transposes_S128x128_S128x128_1_0 l a))

/-- The first bias block is the bias as one row. -/
theorem blk2_apply (c : Dev nD) (t : Fin cfg0.N) (a : Fin 128) :
    (iblk m c 2 t : Vec Ideal S1x128 .f32) (ix2 (0 : Fin 1) a) = b1Arr m c (ix1 a) :=
  (read2 (V m c main_v39) t a).trans
    ((congrFun (V_b1r m c) (ix2 (0 : Fin 1) a)).trans (shapeCast_a_1a_apply (b1Arr m c) shapeCasts_S128_S1x128 (0 : Fin 1) a))

/-- The second weight block is the whole transposed matrix: at `(a, j)` the weight of unit `a` into class `j`. -/
theorem blk3_apply (c : Dev nD) (t : Fin cfg0.N) (a : Fin 128) (j : Fin 64) :
    (iblk m c 3 t : Vec Ideal S128x64 .f32) (ix2 a j) = w2Arr m c (ix2 j a) :=
  (read3 (V m c main_v38) t a j).trans
    ((congrFun (V_w2t m c) (ix2 a j)).trans (transpose_ix2_apply (w2Arr m c) transposes_S64x128_S128x64_1_0 a j))

/-- The second bias block is the bias as one row. -/
theorem blk4_apply (c : Dev nD) (t : Fin cfg0.N) (j : Fin 64) :
    (iblk m c 4 t : Vec Ideal S1x64 .f32) (ix2 (0 : Fin 1) j) = b2Arr m c (ix1 j) :=
  (read4 (V m c main_v40) t j).trans
    ((congrFun (V_b2r m c) (ix2 (0 : Fin 1) j)).trans (shapeCast_a_1a_apply (b2Arr m c) shapeCasts_S64_S1x64 (0 : Fin 1) j))

/-! ## The block's logits are the specification's -/

/-- The five input blocks at point `t`, each at its literal type. -/
abbrev x0At (c : Dev nD) (t : Fin cfg0.N) : Vec Ideal S2000x128 .f32 := iblk m c 0 t
abbrev x1At (c : Dev nD) (t : Fin cfg0.N) : Vec Ideal S128x128 .f32 := iblk m c 1 t
abbrev x2At (c : Dev nD) (t : Fin cfg0.N) : Vec Ideal S1x128 .f32 := iblk m c 2 t
abbrev x3At (c : Dev nD) (t : Fin cfg0.N) : Vec Ideal S128x64 .f32 := iblk m c 3 t
abbrev x4At (c : Dev nD) (t : Fin cfg0.N) : Vec Ideal S1x64 .f32 := iblk m c 4 t

/-- Row `p` of block `t` has the logits of cluster row `2000 t + p`. -/
theorem blockLogits_eq (c : Dev nD) (t : Fin cfg0.N) (p : Fin 2000) (k : Fin 64) :
    blockLogits (x0At m c t) (x1At m c t) (x2At m c t) (x3At m c t) (x4At m c t) (ix2 p k)
      = Cert.Spec.logits (hcArr m c) (w1Arr m c) (b1Arr m c) (w2Arr m c) (b2Arr m c) (rowOf t p) k := by
  rw [blockLogits_apply]
  unfold Cert.Spec.logits Cert.Spec.hidden
  simp only [blk0_apply, blk1_apply, blk2_apply, blk3_apply, blk4_apply]

/-! ## The result array -/

section Real

variable (hhc : ∀ c i, IsReal (hcArr m c i)) (hw1 : ∀ c i, IsReal (w1Arr m c i)) (hb1 : ∀ c i, IsReal (b1Arr m c i))
  (hw2 : ∀ c i, IsReal (w2Arr m c i)) (hb2 : ∀ c i, IsReal (b2Arr m c i))

/-- What the result array ends holding: the normalised cluster rows. -/
abbrev rowsArr (c : Dev nD) : Vec Ideal S50000x64 .f32 :=
  Cert.Spec.rows (hcArr m c) (w1Arr m c) (b1Arr m c) (w2Arr m c) (b2Arr m c)

include hhc hw1 hb1 hw2 hb2 in
/-- WHAT POINT `t` WRITES BACK is block `t` of the normalised cluster rows. -/
theorem flushed_eq (c : Dev nD) (t : Fin cfg0.N) :
    (dats m 0 c).flushed 5 t = ((cfg0.win 5).blk t).view.read (Elt Ideal) (rowsArr m c) := by
  show (cfg0.win 5).cut (grid0.coords t) ((dats m 0 c).after 5 t) = _
  rw [after0_5]
  unfold out0_5
  rw [View.canon_unit_zero hz]
  simp only [View.ld_unit_zero (S := S2000x128) hz, View.ld_unit_zero (S := S128x128) hz, View.ld_unit_zero (S := S1x128) hz,
    View.ld_unit_zero (S := S128x64) hz, View.ld_unit_zero (S := S1x64) hz]
  obtain ⟨-, -, -, -, -, -, -, -, -, -, e0, e1, -⟩ := idx_facts t
  funext j
  obtain ⟨p, q, rfl⟩ : ∃ (p : Fin 2000) (q : Fin 64), j = ix2 p q := ⟨j 0, j 1, eq_ix2 j⟩
  show k0_pay1 (F := Ideal) (x0At m c t) (x1At m c t) (x2At m c t) (x3At m c t) (x4At m c t) (ix2 p q)
    = rowsArr m c (((cfg0.win 5).blk t).view.emb (ix2 p q))
  have he : ((cfg0.win 5).blk t).view.emb (ix2 p q) = (ix2 (rowOf t p) q : S50000x64.Idx) := by
    funext ax; apply Fin.ext
    match ax with
    | ⟨0, _⟩ => show win0_5.index t 0 * 2000 + 1 * p.val = 2000 * t.val + p.val; rw [e0]; omega
    | ⟨1, _⟩ => show win0_5.index t 1 * 64 + 1 * q.val = q.val; rw [e1]; omega
  have hlog : (fun k : Fin 64 => blockLogits (x0At m c t) (x1At m c t) (x2At m c t) (x3At m c t) (x4At m c t) (ix2 p k))
      = Cert.Spec.logits (hcArr m c) (w1Arr m c) (b1Arr m c) (w2Arr m c) (b2Arr m c) (rowOf t p) :=
    funext fun k => blockLogits_eq m c t p k
  refine (pay_apply (x0At m c t) (x1At m c t) (x2At m c t) (x3At m c t) (x4At m c t) p q fun k => ?_).trans ?_
  · rw [blockLogits_eq]
    exact Cert.Spec.logits_real (hhc c) (hw1 c) (hb1 c) (hw2 c) (hb2 c) _ _
  · rw [he, hlog]
    exact (Cert.Spec.rows_apply _ _ _ _ _ (rowOf t p) q).symm

/-- An index of the array is in point `t`'s block iff each coordinate is in the block's range on its axis. -/
theorem mem_blk (t : Fin cfg0.N) (i : S50000x64.Idx) :
    i ∈ ((cfg0.win 5).blk t).view.set ↔ ∀ a : Fin 2, win0_5.index t a * S2000x64.size a ≤ (i a).val ∧ (i a).val < win0_5.index t a * S2000x64.size a + S2000x64.size a := by
  show i ∈ ((View.whole main_v41).slice (win0_5.rect t)).set ↔ _
  rw [View.set_slice_whole, Rect.mem_set_unit]
  exact Iff.rfl

/-- The 25 blocks of 2000 rows tile the 50000 rows: row `r` is in block `r / 2000`. -/
theorem covered (i : S50000x64.Idx) : ∃ t : Fin cfg0.N, (cfg0.win 5).flush t = true ∧ i ∈ ((cfg0.win 5).blk t).view.set := by
  have hi0 : (i 0).val < 50000 := (i 0).isLt
  have hi1 : (i 1).val < 64 := (i 1).isLt
  obtain ⟨t, q0, q1⟩ := idx_onto ⟨(i 0).val / 2000, by omega⟩
  refine ⟨t, flush0_5 t, ?_⟩
  rw [mem_blk]
  intro a
  match a with
  | ⟨0, _⟩ => show win0_5.index t (0 : Fin 2) * 2000 ≤ (i 0).val ∧ (i 0).val < win0_5.index t (0 : Fin 2) * 2000 + 2000; rw [q0]; show (i 0).val / 2000 * 2000 ≤ (i 0).val ∧ (i 0).val < (i 0).val / 2000 * 2000 + 2000; omega
  | ⟨1, _⟩ => show win0_5.index t (1 : Fin 2) * 64 ≤ (i 1).val ∧ (i 1).val < win0_5.index t (1 : Fin 2) * 64 + 64; rw [q1]; omega

include hhc hw1 hb1 hw2 hb2 in
/-- THE RESULT ARRAY after the region: the normalised cluster rows. -/
theorem final (c : Dev nD) : (dats m 0 c).arrAt 5 cfg0.N = rowsArr m c :=
  (dats m 0 c).arrAt_eq_of_cover 5 (rowsArr m c) (fun t _ => flushed_eq m hhc hw1 hb1 hw2 hb2 c t) (covered)

end Real

/-! ## The run, read -/

section Run

variable (hhc : ∀ c i, IsReal (hcArr m c i)) (hw1 : ∀ c i, IsReal (w1Arr m c i)) (hb1 : ∀ c i, IsReal (b1Arr m c i))
  (hw2 : ∀ c i, IsReal (w2Arr m c i)) (hb2 : ∀ c i, IsReal (b2Arr m c i))

include hhc hw1 hb1 hw2 hb2 in
/-- Every weakly fair execution of the kernel's program terminates with @main's result at the normalised cluster rows
    gathered by the cluster index, and the arguments unchanged: the generated frame run, its result buffer read through
    the row gather and the region's array through `final`. -/
theorem run : θ_run defs (onTc (τ := τ) (main (F := Ideal))) ⟨m, fun _ => 0, ρ⟩ fun r => ∀ c : Dev nD,
      r.2.mem ((c.tc : Thread nD τ).loc main_v48)
        = Host.gather gather_S50000x64_S100000x1_S100000x64_1_0_n_n_0_1_164 (rowsArr m c)
            (ciIdx (m ((c.tc : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => ⟨
      (((h c).2 main_v48 (Pipeline.mem_restRefs_of main_v48 (by decide) (by decide))).trans (tail_eq m (dats m) c)).trans
        (congrArg (fun A => Host.gather gather_S50000x64_S100000x1_S100000x64_1_0_n_n_0_1_164 A
            (ciIdx (m ((c.tc : Thread nD τ).loc main_arg4)))) (final m hhc hw1 hb1 hw2 hb2 c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩)
    (run_main m ρ)

end Run

end Cert.KernelIdeal.Hand

end
-- ==== Proof.RefValue.lean ====
/-
  The reference's result is the specification, gathered.

  The reference computes the logits of the 50000 cluster rows (two layers over the gathered rows `hc`), gathers them
  to the 100000 result rows, and only then takes the log-softmax of each result row. The specification
  (`Cert.Spec.rows`) takes the log-softmax of each cluster row first; the claim here is that gathering it by the same
  indices gives the reference's result.

  The steps. (1) Read index by index, the reference's logits array is `Cert.Spec.logits` (`hidden_apply`,
  `logits_apply`): the two transposes swap the weights' coordinates back, the bias broadcasts read the bias at the
  column, the relu's constant is `0`. (2) The gather reads WHOLE ROWS: result element `(p, k)` reads the operand at
  `(rowOf idx p, k)`, where `rowOf idx p` is row `p`'s start index read signed and clamped into `[0, 49999]`, whatever
  `k` is (`operandIdx_row`): axis 0 of the operand is collapsed and named by the start index map, axis 1 is the offset
  axis. So result row `p` of the gathered logits IS the logits row `rowOf idx p` (`gathered_apply`), and every entry of
  it is a real number. (3) The row maximum the reference subtracts is the fold of `max` from `-∞` over that row, a real
  number because the row is nonempty and real (`rowMax_real`); its value does not matter. (4) The reference's
  `(y - m) - log (0 + ∑ exp (y - m))` is then the row law's second spelling (`Cert.RowLaw.lsm_shift_before`), the
  log-softmax of the logits row `rowOf idx p` at `q`, which is the specification's row `rowOf idx p` at `q`, which is
  what the gather of the specification reads at `(p, q)`.
-/
import proofs.«153025_j33208687133419_1_alg».proof.Proof.RefReadPatched
import proofs.«153025_j33208687133419_1_alg».proof.Proof.Spec
import Idealize.ShloMosaic.Lib.ValueIdx
import Idealize.ShloMosaic.PureOps.Ideal.Laws
import Idealize.ShloMosaic.PureOps.Reduce

noncomputable section

open scoped BigOperators

namespace Cert.RefValue

open Cert.ReferenceIdeal Cert.ReferenceIdeal.ReadP Cert.RowLaw Idealize.ShloMosaic Idealize.ShloMosaic.ValueIdx

/-! ## The gather reads whole rows -/

/-- The cluster row a result row reads: the start index of result row `p`, read signed and clamped into
    `[0, 49999]`. -/
def rowOf (idx : IVec S100000x1 32) (p : Fin 100000) : Fin 50000 :=
  ⟨min (idx (ix2 p (0 : Fin 1))).toInt.toNat 49999, by omega⟩

/-- Result element `(p, k)` of the gather reads the operand at `(rowOf idx p, k)`. On operand axis 0 (collapsed, and
    the one axis of the start index map) the index is the clamped start, which depends on `p` only; on axis 1 (the
    offset axis, not in the start index map) it is the result's coordinate `k`. -/
theorem operandIdx_row (idx : IVec S100000x1 32) (p : Fin 100000) (k : Fin 64) :
    gather_S50000x64_S100000x1_S100000x64_1_0_n_n_0_1_164.operandIdx (ix2 p k) idx = ix2 (rowOf idx p) k := by
  funext a
  refine Fin.ext ?_
  match a with
  | ⟨0, _⟩ =>
    show gather_S50000x64_S100000x1_S100000x64_1_0_n_n_0_1_164.start (ix2 p k) idx 0
        + gather_S50000x64_S100000x1_S100000x64_1_0_n_n_0_1_164.batchCoord (ix2 p k) 0
        + gather_S50000x64_S100000x1_S100000x64_1_0_n_n_0_1_164.offCoord (ix2 p k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S50000x64_S100000x1_S100000x64_1_0_n_n_0_1_164.startIndexMap from List.mem_singleton.mpr rfl)]
    have hsi : gather_S50000x64_S100000x1_S100000x64_1_0_n_n_0_1_164.siIdx (ix2 p k)
        ⟨List.idxOf (0 : Fin 2) gather_S50000x64_S100000x1_S100000x64_1_0_n_n_0_1_164.startIndexMap,
          List.idxOf_lt_length_iff.2 (List.mem_singleton.mpr rfl)⟩ = ix2 p (0 : Fin 1) := by
      funext b; refine Fin.ext ?_
      match b with
      | ⟨0, _⟩ => rfl
      | ⟨1, _⟩ => rfl
    rw [hsi]
    rfl
  | ⟨1, _⟩ =>
    show gather_S50000x64_S100000x1_S100000x64_1_0_n_n_0_1_164.start (ix2 p k) idx 1
        + gather_S50000x64_S100000x1_S100000x64_1_0_n_n_0_1_164.batchCoord (ix2 p k) 1
        + gather_S50000x64_S100000x1_S100000x64_1_0_n_n_0_1_164.offCoord (ix2 p k) 1 = k.val
    have h1 : gather_S50000x64_S100000x1_S100000x64_1_0_n_n_0_1_164.start (ix2 p k) idx 1 = 0 := by
      unfold GatherDims.start
      rw [dif_neg (by decide)]
    rw [h1, GatherDims.batchCoord_eq_zero _ _ _ List.not_mem_nil]
    unfold GatherDims.offCoord
    rw [dif_pos (by decide)]
    simp only [Nat.zero_add]
    rfl

/-! ## A row maximum folded from `-∞` is a real number -/

/-- The f32 pattern of `-∞` is the extended reals' bottom. -/
theorem ofBits_negInf : Ideal.ofBits .f32 0xFF800000#32 = ⊥ := by simp [Ideal.ofBits, Ideal.ieee]

/-- A host reduction by `max` over ONE nonempty axis, from an initial value `⊥`, of an array of real numbers is a
    real number at every result index: it is the fold of `max` from `⊥` over that axis's coordinates. -/
theorem reduce_max_real {s t u : Shape} {a : Fin s.rank} (y : s.Idx → EReal) (init : u.Idx → EReal)
    (h' : s.ReducesTo [a] t) (h : s.Reduces [a] t) (hu : 0 < u.numel) (hne : 0 < s.size a)
    (hinit : init (Shape.Idx.first hu) = ⊥) (hy : ∀ i, IsReal (y i)) (j : t.Idx) :
    IsReal (Host.reduce (FloatOps.maximumf (F := Ideal) (φ := .f32)) y init h' hu j) := by
  rw [Host.reduce_eq_fold_single (FloatOps.maximumf (F := Ideal) (φ := .f32)) y init h' h hu j, hinit]
  haveI : Nonempty (Fin (s.size a)) := ⟨⟨0, hne⟩⟩
  exact IsReal.fold_max Finset.univ Finset.univ_nonempty _ (fun k _ => hy _)

section

variable {x0 : (⟨S100000x128, .f32⟩ : BufTy).Contents (Elt Ideal)} {x1 : (⟨S2x1600000, .i32⟩ : BufTy).Contents (Elt Ideal)}
  {x2 : (⟨S1600000, .f32⟩ : BufTy).Contents (Elt Ideal)} {x3 : (⟨S50000, .i32⟩ : BufTy).Contents (Elt Ideal)}
  {x4 : (⟨S100000, .i32⟩ : BufTy).Contents (Elt Ideal)} {x5 : (⟨S128x128, .f32⟩ : BufTy).Contents (Elt Ideal)}
  {x6 : (⟨S128, .f32⟩ : BufTy).Contents (Elt Ideal)} {x7 : (⟨S64x128, .f32⟩ : BufTy).Contents (Elt Ideal)}
  {x8 : (⟨S64, .f32⟩ : BufTy).Contents (Elt Ideal)}

/-! ## The reference's two layers, index by index -/

/-- The reference's relu'd first layer at `(r, a)` is the specification's hidden unit. -/
theorem hidden_apply (r : Fin 50000) (a : Fin 128) :
    val_main_v42 (F := Ideal) x0 x1 x2 x3 x5 x6 (ix2 r a) = Cert.Spec.hidden (val_main_v36 (F := Ideal) x0 x1 x2 x3) x5 x6 r a := by
  rw [val_main_v42_apply, val_main_v41_apply, val_main_v38_apply, val_main_v40_apply, val_main_v39_apply,
    val_main_call0_v0_apply, val_main_call0_cst_apply]
  have hl : ∀ l : Fin 128, lidx_main_v38 (ix2 r a) l = ix2 r l := fun l =>
    funext fun b => Fin.ext (by match b with | ⟨0, _⟩ => rfl | ⟨1, _⟩ => rfl)
  have hr : ∀ l : Fin 128, idx_main_v37 (ridx_main_v38 (ix2 r a) l) = ix2 a l := fun l =>
    funext fun b => Fin.ext (by match b with | ⟨0, _⟩ => rfl | ⟨1, _⟩ => rfl)
  have hb : idx_main_v39 (idx_main_v40 (ix2 r a)) = ix1 a :=
    funext fun b => Fin.ext (by match b with | ⟨0, _⟩ => rfl)
  have hsum : (∑ k : Fin 128, (val_main_v36 (F := Ideal) x0 x1 x2 x3) (lidx_main_v38 (ix2 r a) k)
        * (val_main_v37 (F := Ideal) x5) (ridx_main_v38 (ix2 r a) k))
      = ∑ l : Fin 128, (val_main_v36 (F := Ideal) x0 x1 x2 x3) (ix2 r l) * x5 (ix2 a l) :=
    Finset.sum_congr rfl fun l _ => by rw [hl l, val_main_v37_apply, hr l]
  rw [hsum, hb]
  show max (_ + _) (Ideal.ofBits .f32 0x00000000#32) = _
  rw [Ideal.ofBits_zero_f32]
  rfl

/-- The reference's logits array at `(r, j)` is the specification's logit. -/
theorem logits_apply (r : Fin 50000) (j : Fin 64) :
    val_main_v47 (F := Ideal) x0 x1 x2 x3 x5 x6 x7 x8 (ix2 r j) = Cert.Spec.logits (val_main_v36 (F := Ideal) x0 x1 x2 x3) x5 x6 x7 x8 r j := by
  rw [val_main_v47_apply, val_main_v44_apply, val_main_v46_apply, val_main_v45_apply]
  have hl : ∀ l : Fin 128, lidx_main_v44 (ix2 r j) l = ix2 r l := fun l =>
    funext fun b => Fin.ext (by match b with | ⟨0, _⟩ => rfl | ⟨1, _⟩ => rfl)
  have hr : ∀ l : Fin 128, idx_main_v43 (ridx_main_v44 (ix2 r j) l) = ix2 j l := fun l =>
    funext fun b => Fin.ext (by match b with | ⟨0, _⟩ => rfl | ⟨1, _⟩ => rfl)
  have hb : idx_main_v45 (idx_main_v46 (ix2 r j)) = ix1 j :=
    funext fun b => Fin.ext (by match b with | ⟨0, _⟩ => rfl)
  have hsum : (∑ k : Fin 128, (val_main_v42 (F := Ideal) x0 x1 x2 x3 x5 x6) (lidx_main_v44 (ix2 r j) k)
        * (val_main_v43 (F := Ideal) x7) (ridx_main_v44 (ix2 r j) k))
      = ∑ l : Fin 128, Cert.Spec.hidden (val_main_v36 (F := Ideal) x0 x1 x2 x3) x5 x6 r l * x7 (ix2 j l) :=
    Finset.sum_congr rfl fun l _ => by rw [hl l, hidden_apply, val_main_v43_apply, hr l]
  rw [hsum, hb]
  rfl

/-! ## The gathered logits -/

/-- Result row `p` of the gathered logits is the logits row `rowOf idx p`. -/
theorem gathered_apply (p : Fin 100000) (k : Fin 64) :
    val_main_v54 (F := Ideal) x0 x1 x2 x3 x4 x5 x6 x7 x8 (ix2 p k) = Cert.Spec.logits (val_main_v36 (F := Ideal) x0 x1 x2 x3) x5 x6 x7 x8 (rowOf (val_main_v53 (F := Ideal) x4) p) k := by
  show val_main_v47 (F := Ideal) x0 x1 x2 x3 x5 x6 x7 x8 (gather_S50000x64_S100000x1_S100000x64_1_0_n_n_0_1_164.operandIdx (ix2 p k) (val_main_v53 (F := Ideal) x4)) = _
  rw [operandIdx_row, logits_apply]

/-- With real cluster rows and weights every gathered logit is a real number. -/
theorem gathered_real (hhc : ∀ i, IsReal (val_main_v36 (F := Ideal) x0 x1 x2 x3 i)) (h5 : ∀ i, IsReal (x5 i)) (h6 : ∀ i, IsReal (x6 i))
    (h7 : ∀ i, IsReal (x7 i)) (h8 : ∀ i, IsReal (x8 i))
    (i : S100000x64.Idx) : IsReal (val_main_v54 (F := Ideal) x0 x1 x2 x3 x4 x5 x6 x7 x8 i) := by
  obtain ⟨p, k, rfl⟩ : ∃ (p : Fin 100000) (k : Fin 64), i = ix2 p k := ⟨i 0, i 1, eq_ix2 i⟩
  rw [gathered_apply]
  exact Cert.Spec.logits_real hhc h5 h6 h7 h8 _ _

/-! ## The reference's log-softmax of a gathered row -/

/-- The maximum the reference subtracts from result row `p` — `max` of `-∞` and the row's fold of `max` from `-∞` —
    is a real number. -/
theorem rowMax_real (hhc : ∀ i, IsReal (val_main_v36 (F := Ideal) x0 x1 x2 x3 i)) (h5 : ∀ i, IsReal (x5 i)) (h6 : ∀ i, IsReal (x6 i))
    (h7 : ∀ i, IsReal (x7 i)) (h8 : ∀ i, IsReal (x8 i))
    (p : Fin 100000) : IsReal (val_main_call1_v2 (F := Ideal) x0 x1 x2 x3 x4 x5 x6 x7 x8 (ix1 p)) := by
  rw [val_main_call1_v2_apply, val_main_call1_v1_apply, val_main_call1_cst_0_apply]
  show IsReal (max (Ideal.ofBits .f32 0xFF800000#32) _)
  rw [ofBits_negInf, max_eq_right bot_le]
  unfold val_main_call1_v0
  exact reduce_max_real _ _ _ (by decide) _ (by decide)
    ((val_main_call1_cst_apply (F := Ideal) _).trans ofBits_negInf) (gathered_real hhc h5 h6 h7 h8) _

/-- The shifted row: the gathered logit minus the row's maximum. -/
theorem shifted_apply (p : Fin 100000) (k : Fin 64) :
    val_main_call1_v5 (F := Ideal) x0 x1 x2 x3 x4 x5 x6 x7 x8 (ix2 p k) = val_main_v54 (F := Ideal) x0 x1 x2 x3 x4 x5 x6 x7 x8 (ix2 p k) - val_main_call1_v2 (F := Ideal) x0 x1 x2 x3 x4 x5 x6 x7 x8 (ix1 p) := by
  rw [val_main_call1_v5_apply, val_main_call1_v4_apply, val_main_call1_v3_apply,
    show idx_main_call1_v3 (idx_main_call1_v4 (ix2 p k)) = ix1 p from
      funext fun b => Fin.ext (by match b with | ⟨0, _⟩ => rfl)]
  rfl

/-- The row's sum of shifted exponentials, from the reference's zero initial value. -/
theorem expSum_apply (p : Fin 100000) :
    val_main_call1_v7 (F := Ideal) x0 x1 x2 x3 x4 x5 x6 x7 x8 (ix1 p)
      = 0 + ∑ k : Fin 64, Ideal.exp (val_main_v54 (F := Ideal) x0 x1 x2 x3 x4 x5 x6 x7 x8 (ix2 p k) - val_main_call1_v2 (F := Ideal) x0 x1 x2 x3 x4 x5 x6 x7 x8 (ix1 p)) := by
  rw [val_main_call1_v7_apply, val_main_call1_cst_1_apply]
  show Ideal.ofBits .f32 0x00000000#32 + _ = _
  rw [Ideal.ofBits_zero_f32]
  refine congrArg (0 + ·) (Finset.sum_congr rfl fun k _ => ?_)
  rw [val_main_call1_v6_apply,
    show idx_main_call1_v7 (ix1 p) k = ix2 p k from
      funext fun b => Fin.ext (by match b with | ⟨0, _⟩ => rfl | ⟨1, _⟩ => rfl),
    shifted_apply, Ideal.hostUnary_exp_def]

end

/-! ## The result -/

open Cert.ReferenceIdeal Cert.ReferenceIdeal.ReadP Cert.RowLaw in
theorem result_eq
    (x0 : (⟨S100000x128, .f32⟩ : BufTy).Contents (Elt Ideal)) (x1 : (⟨S2x1600000, .i32⟩ : BufTy).Contents (Elt Ideal))
    (x2 : (⟨S1600000, .f32⟩ : BufTy).Contents (Elt Ideal)) (x3 : (⟨S50000, .i32⟩ : BufTy).Contents (Elt Ideal))
    (x4 : (⟨S100000, .i32⟩ : BufTy).Contents (Elt Ideal)) (x5 : (⟨S128x128, .f32⟩ : BufTy).Contents (Elt Ideal))
    (x6 : (⟨S128, .f32⟩ : BufTy).Contents (Elt Ideal)) (x7 : (⟨S64x128, .f32⟩ : BufTy).Contents (Elt Ideal))
    (x8 : (⟨S64, .f32⟩ : BufTy).Contents (Elt Ideal))
    (hhc : ∀ i, IsReal (val_main_v36 (F := Ideal) x0 x1 x2 x3 i)) (h5 : ∀ i, IsReal (x5 i)) (h6 : ∀ i, IsReal (x6 i))
    (h7 : ∀ i, IsReal (x7 i)) (h8 : ∀ i, IsReal (x8 i)) :
    val_main_v55 (F := Ideal) x0 x1 x2 x3 x4 x5 x6 x7 x8
      = Host.gather gather_S50000x64_S100000x1_S100000x64_1_0_n_n_0_1_164
          (Cert.Spec.rows (val_main_v36 (F := Ideal) x0 x1 x2 x3) x5 x6 x7 x8) (val_main_v53 (F := Ideal) x4) := by
  funext i
  obtain ⟨p, q, rfl⟩ : ∃ (p : Fin 100000) (q : Fin 64), i = ix2 p q := ⟨i 0, i 1, eq_ix2 i⟩
  -- the right-hand side: the gather of the specification reads its row `rowOf idx p`
  show _ = Cert.Spec.rows (val_main_v36 (F := Ideal) x0 x1 x2 x3) x5 x6 x7 x8
    (gather_S50000x64_S100000x1_S100000x64_1_0_n_n_0_1_164.operandIdx (ix2 p q) (val_main_v53 (F := Ideal) x4))
  rw [operandIdx_row, Cert.Spec.rows_apply]
  -- the left-hand side: the shifted entry minus the log of the row's sum of shifted exponentials
  rw [val_main_v55_apply, val_main_call1_v10_apply, val_main_call1_v9_apply, val_main_call1_v8_apply,
    show idx_main_call1_v8 (idx_main_call1_v10 (ix2 p q)) = ix1 p from
      funext fun b => Fin.ext (by match b with | ⟨0, _⟩ => rfl),
    expSum_apply, shifted_apply]
  simp only [Ideal.subf_def, Ideal.hostUnary_log_def, gathered_apply]
  exact lsm_shift_before (Cert.Spec.logits (val_main_v36 (F := Ideal) x0 x1 x2 x3) x5 x6 x7 x8 (rowOf (val_main_v53 (F := Ideal) x4) p))
    (val_main_call1_v2 (F := Ideal) x0 x1 x2 x3 x4 x5 x6 x7 x8 (ix1 p))
    (fun k => Cert.Spec.logits_real hhc h5 h6 h7 h8 _ k) (rowMax_real hhc h5 h6 h7 h8 p) q

end Cert.RefValue

end
-- ==== Proof.RefRun.lean ====
/-
  The reference's run ends at the stage `val_main_v55`.

  The reference's run leaves in its result buffer the fold `after ops` of its 82 operations over the launch contents.
  Here that fold, read at the result buffer, is shown to be the read module's stage `val_main_v55` applied to the
  launch contents of the nine arguments, for every float family.

  The composed term of the result holds the gathered logits (the value of `main_v54`, itself the whole propagation and
  both layers) several times over: the callee `log_softmax` reads it for the row maximum, for the shifted row and,
  through that, for the sum of exponentials. So the list is cut once, before the callee's first operation:
  `after ops V = after (ops.drop 67) (after (ops.take 67) V)`. The first 67 operations are folded from an arbitrary
  valuation `V` and read at `main_v54` (`upto54`); the callee's fifteen are folded from an arbitrary valuation `W` of
  which only `W main_v54` is read (`tail55`), so that value stays one variable.

  The two callees' operations are stated over typed references: each moves its operands' contents from the buffer's own
  type to the carried type and its result back, along the reference's proof `ty_eq`. Between two operations of a callee
  the two transports cancel for ANY typed reference (`ofBuf_toBuf`: by cases on the proof, so that no signature table is
  evaluated); at a callee's border — its argument, written by a plain operation, and its result, read by one — one
  transport is left, the identity because the buffer's contents and the carried type's are the same values
  (`ofBuf_eq_of_heq`, `toBuf_eq_of_heq`).
-/
import proofs.«153025_j33208687133419_1_alg».proof.Proof.RefRunPatched
import proofs.«153025_j33208687133419_1_alg».proof.Proof.RefReadPatched

noncomputable section

namespace Cert.RefRun

open Cert.ReferenceIdeal Cert.ReferenceIdeal.Gen Cert.ReferenceIdeal.ReadP Idealize.ShloMosaic Idealize.ShloMosaic.TcCoe Idealize.SL.Sem Idealize.ShloMosaic.StableHlo

/-! ## Typed references: the transports along `ty_eq` cancel, whatever the reference -/

section Typed

variable {sg : RefSig} {Val : EltTy → Type} {T : BufTy}

/-- Contents moved to the buffer's own type and back are the contents. -/
theorem ofBuf_toBuf (x : TRef sg T) (v : T.Contents Val) : x.ofBuf (x.toBuf v) = v := by
  obtain ⟨r, h, _, _⟩ := x
  subst h
  rfl

/-- Contents of the buffer that ARE (heterogeneously) a value of the carried type read back as that value. -/
theorem ofBuf_eq_of_heq (x : TRef sg T) {w : x.ref.ty.Contents Val} {v : T.Contents Val} (h : HEq w v) :
    x.ofBuf w = v := by
  obtain ⟨r, e, _, _⟩ := x
  subst e
  exact eq_of_heq h

/-- A value of the carried type moved to the buffer's own type is (heterogeneously) that value. -/
theorem toBuf_eq_of_heq (x : TRef sg T) {v : T.Contents Val} {w : x.ref.ty.Contents Val} (h : HEq v w) :
    x.toBuf v = w := by
  obtain ⟨r, e, _, _⟩ := x
  subst e
  exact eq_of_heq h

end Typed

/-! ## The fold of a list cut in two -/

section Cut

variable {τ' : Topo} {sg : RefSig} {Val : EltTy → Type}

/-- Folding a concatenation folds the first list, then the second from what the first left. -/
theorem after_append' (l₁ l₂ : List (HloOp τ' sg Val)) (V : Valuation τ' sg Val) :
    after (l₁ ++ l₂) V = after l₂ (after l₁ V) := by
  induction l₁ generalizing V with
  | nil => rfl
  | cons op l ih => exact ih _

/-- A list folds as its first `k` operations, then the rest. -/
theorem after_cut (l : List (HloOp τ' sg Val)) (k : Nat) (V : Valuation τ' sg Val) :
    after l V = after (l.drop k) (after (l.take k) V) := by
  rw [← after_append', List.take_append_drop]

end Cut

variable {F : FTy → Type} [FloatOps F]

/-! ## The first 67 operations: the gathered logits -/

set_option maxRecDepth 8192 in
set_option maxHeartbeats 4000000 in
/-- From any valuation `V`, the first 67 operations leave in `main_v54` the stage `val_main_v54` of `V`'s contents at
    the nine arguments. The callee `relu` sits inside this stretch: its argument `main_v41` and its result `main_v42`
    are its borders. -/
theorem upto54 (V : Valuation τ sig (Elt F)) :
    after ((ValueP.ops (F := F)).take 67) V (Proc.devRef .tc main_v54)
      = val_main_v54 (F := F) (V (Proc.devRef .tc main_arg0))
        (V (Proc.devRef .tc main_arg1))
        (V (Proc.devRef .tc main_arg2))
        (V (Proc.devRef .tc main_arg3))
        (V (Proc.devRef .tc main_arg4))
        (V (Proc.devRef .tc main_arg5))
        (V (Proc.devRef .tc main_arg6))
        (V (Proc.devRef .tc main_arg7))
        (V (Proc.devRef .tc main_arg8)) := by
  dsimp only [ValueP.ops, List.take]
  after_results_simp
  have e41 : ∀ w : (⟨S50000x128, .f32⟩ : BufTy).Contents (Elt F),
      (TRef.of (T := ⟨S50000x128, .f32⟩) main_v41).ofBuf w = w := fun _ => ofBuf_eq_of_heq _ HEq.rfl
  have e42 : ∀ v : (⟨S50000x128, .f32⟩ : BufTy).Contents (Elt F),
      (TRef.of (T := ⟨S50000x128, .f32⟩) main_v42).toBuf v = v := fun _ => toBuf_eq_of_heq _ HEq.rfl
  simp only [ofBuf_toBuf, e41, e42]
  unfold
    val_main_v54 val_main_v53 val_main_v52 val_main_v51 val_main_v50 val_main_c_7 val_main_v49 val_main_v48
    val_main_c_6 val_main_v47 val_main_v46 val_main_v45 val_main_v44 val_main_v43 val_main_v42 val_main_call0_v0
    val_main_call0_cst val_main_v41 val_main_v40 val_main_v39 val_main_v38 val_main_v37 val_main_v36 val_main_v35
    val_main_v34 val_main_v33 val_main_v32 val_main_c_5 val_main_v31 val_main_v30 val_main_c_4 val_main_v29
    val_main_v28 val_main_v27 val_main_cst_3 val_main_v26 val_main_v25 val_main_v24 val_main_v23 val_main_v22
    val_main_v21 val_main_v20 val_main_v19 val_main_c_2 val_main_v18 val_main_v17 val_main_c_1 val_main_v16
    val_main_v15 val_main_v14 val_main_cst val_main_v13 val_main_v12 val_main_v11 val_main_v10 val_main_v9 val_main_v8
    val_main_v7 val_main_v6 val_main_c_0 val_main_v5 val_main_v4 val_main_c val_main_v3 val_main_v2 val_main_v1
    val_main_v0
  rfl

/-! ## The callee `log_softmax`: from the gathered logits to the result -/

set_option maxRecDepth 8192 in
set_option maxHeartbeats 4000000 in
/-- From any valuation `W` that holds the stage `val_main_v54` in `main_v54`, the callee's fifteen operations leave the
    stage `val_main_v55` in the result buffer. -/
theorem tail55 (W : Valuation τ sig (Elt F)) (x0 : (⟨S100000x128, .f32⟩ : BufTy).Contents (Elt F)) (x1 : (⟨S2x1600000, .i32⟩ : BufTy).Contents (Elt F)) (x2 : (⟨S1600000, .f32⟩ : BufTy).Contents (Elt F)) (x3 : (⟨S50000, .i32⟩ : BufTy).Contents (Elt F)) (x4 : (⟨S100000, .i32⟩ : BufTy).Contents (Elt F)) (x5 : (⟨S128x128, .f32⟩ : BufTy).Contents (Elt F)) (x6 : (⟨S128, .f32⟩ : BufTy).Contents (Elt F)) (x7 : (⟨S64x128, .f32⟩ : BufTy).Contents (Elt F)) (x8 : (⟨S64, .f32⟩ : BufTy).Contents (Elt F))
    (h54 : W (Proc.devRef .tc main_v54) = val_main_v54 (F := F) x0 x1 x2 x3 x4 x5 x6 x7 x8) :
    after ((ValueP.ops (F := F)).drop 67) W (Proc.devRef .tc main_v55)
      = val_main_v55 (F := F) x0 x1 x2 x3 x4 x5 x6 x7 x8 := by
  dsimp only [ValueP.ops, List.drop]
  after_results_simp
  simp only [ofBuf_toBuf]
  have e54 : (TRef.of (T := ⟨S100000x64, .f32⟩) main_v54).ofBuf (W (Proc.devRef .tc main_v54))
      = val_main_v54 (F := F) x0 x1 x2 x3 x4 x5 x6 x7 x8 := ofBuf_eq_of_heq _ (heq_of_eq h54)
  rw [e54]
  refine toBuf_eq_of_heq _ (heq_of_eq ?_)
  unfold
    val_main_v55 val_main_call1_v10 val_main_call1_v9 val_main_call1_v8 val_main_call1_v7 val_main_call1_cst_1
    val_main_call1_v6 val_main_call1_v5 val_main_call1_v4 val_main_call1_v3 val_main_call1_v2 val_main_call1_v1
    val_main_call1_cst_0 val_main_call1_v0 val_main_call1_cst
  rfl

/-! ## The result -/

/-- The fold of all 82 operations over the launch contents, read at the result buffer, is the stage `val_main_v55` of
    the arguments' launch contents. -/
theorem result_stage (m : (ℓ : Loc nD τ sig) → Buf (Elt F) ℓ) (c : Dev nD) :
    after (ValueP.ops (F := F)) (launchContents m c) (Proc.devRef .tc main_v55)
      = val_main_v55 (F := F) (m ((c.tc : Thread nD τ).loc main_arg0))
        (m ((c.tc : Thread nD τ).loc main_arg1))
        (m ((c.tc : Thread nD τ).loc main_arg2))
        (m ((c.tc : Thread nD τ).loc main_arg3))
        (m ((c.tc : Thread nD τ).loc main_arg4))
        (m ((c.tc : Thread nD τ).loc main_arg5))
        (m ((c.tc : Thread nD τ).loc main_arg6))
        (m ((c.tc : Thread nD τ).loc main_arg7))
        (m ((c.tc : Thread nD τ).loc main_arg8)) := by
  rw [after_cut (ValueP.ops (F := F)) 67]
  exact tail55 _ _ _ _ _ _ _ _ _ _ (upto54 (launchContents m c))

/-- On every device, for any float values, from any memory with zero counters: every weakly fair execution of the
    reference's @main terminates with the result buffer at the stage `val_main_v55` of the arguments' launch contents,
    the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v55)
        = val_main_v55 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c).1.trans (result_stage m c), (h c).2⟩)
    (Cert.ReferenceIdeal.ValueP.run m ρ)

end Cert.RefRun

end
-- ==== Proof.Finite.lean ====
/-
  Finite inputs stay finite through the propagation, and the precondition says the inputs are finite.

  The propagation is two hops of "gather rows, scale each row by its edge weight, add the scaled rows into the rows their
  edges point at", followed by a gather of the cluster rows. Over the extended reals each of these keeps real entries real:
  a gather only reads entries of its operand, whatever the start indices are; a product of two reals is real; and the
  accumulating scatter adds to each (real) operand entry a finite sum of (real) update entries, whichever updates land
  there. The starting accumulator is the zero splat. So if `x` and the edge weights are real, every entry of the gathered
  cluster rows is real.

  The precondition is a conjunction of six `all (|a| < +∞)`, one per float argument. Over the extended reals `|a|` is
  `max a (-a)` and the pattern `0x7F800000` is `⊤`, so each conjunct says that no entry of that argument is `⊤` or `⊥`.
-/
import proofs.«153025_j33208687133419_1_alg».proof.Proof.RefReadPatched
import proofs.«153025_j33208687133419_1_alg».proof.Proof.RowLaw
import proofs.«153025_j33208687133419_1_alg».proof.Pre_finite_inputs
import proofs.«153025_j33208687133419_1_alg».proof.Proof.Gen.Pre_finite_inputs
import Idealize.ShloMosaic.Lib.ReduceAll
import Idealize.ShloMosaic.Lib.ValueIdx
import Idealize.ShloMosaic.PureOps.Ideal
import Idealize.ShloMosaic.PureOps.Ideal.Laws
import Idealize.ShloMosaic.PureOps.ShapeOps
import Idealize.ShloMosaic.PureOps.Contract

noncomputable section

open scoped BigOperators

namespace Cert.Finite

open Idealize.ShloMosaic Cert.RowLaw

/-! ## The three operations of a hop -/

/-- A gather reads its operand at some index, whatever the start indices say: a gather of a real array is real. -/
theorem gather_real {s si t : Shape} {w : Nat} (d : GatherDims s si t) (x : s.Idx → EReal) (idx : IVec si w)
    (hx : ∀ i, IsReal (x i)) (j : t.Idx) : IsReal (Host.gather d x idx j) := by
  unfold Host.gather
  exact hx _

/-- The accumulating scatter over the extended reals adds, to each operand entry, the finite sum of the update entries
    that land on it: a real operand and real updates give a real result, wherever the updates land. -/
theorem scatterAdd_real {s si su : Shape} {w : Nat} (d : ScatterDims s si su) (x : FVec Ideal s .f32) (idx : IVec si w)
    (upd : FVec Ideal su .f32) (hx : ∀ i, IsReal (x i)) (hu : ∀ j, IsReal (upd j)) (i : s.Idx) :
    IsReal (Host.scatterAdd d x idx upd i) := by
  unfold Host.scatterAdd
  rw [Ideal.hostScatterAdd_def]
  unfold Ideal.hostScatterAdd
  exact (hx i).add (IsReal.sum _ _ fun j _ => hu j)

/-- The product of two reals, as the ideal multiplication spells it. -/
theorem mulf_real {a b : EReal} (ha : IsReal a) (hb : IsReal b) : IsReal (FloatOps.mulf (F := Ideal) (φ := .f32) a b) := by
  rw [Ideal.mulf_def]
  exact ha.mul hb

/-- The f32 pattern of all zero bits is the real number zero. -/
theorem zero_bits_real : IsReal (FloatOps.ofBits (F := Ideal) .f32 0x00000000#32) := by
  rw [Ideal.ofBits_def, Ideal.ofBits_zero_f32]
  exact isReal_zero

/-! ## The reference's propagation, one operation at a time -/

section Stages

open Cert.ReferenceIdeal Cert.ReferenceIdeal.ReadP

variable (x0 : (⟨S100000x128, .f32⟩ : BufTy).Contents (Elt Ideal)) (x1 : (⟨S2x1600000, .i32⟩ : BufTy).Contents (Elt Ideal))
  (x2 : (⟨S1600000, .f32⟩ : BufTy).Contents (Elt Ideal)) (x3 : (⟨S50000, .i32⟩ : BufTy).Contents (Elt Ideal))

/-- The first hop's gathered rows of `x`. -/
theorem v10_real (h0 : ∀ i, IsReal (x0 i)) : ∀ i, IsReal (val_main_v10 (F := Ideal) x0 x1 i) := by
  intro i
  unfold val_main_v10
  generalize val_main_v9 (F := Ideal) x1 = idx
  exact gather_real _ x0 idx h0 i

/-- The edge weights broadcast along the rows (first hop). -/
theorem v12_real (h2 : ∀ i, IsReal (x2 i)) : ∀ i, IsReal (val_main_v12 (F := Ideal) x2 i) := by
  intro i
  rw [val_main_v12_apply, val_main_v11_apply]
  exact h2 _

/-- The first hop's scaled rows. -/
theorem v13_real (h0 : ∀ i, IsReal (x0 i)) (h2 : ∀ i, IsReal (x2 i)) :
    ∀ i, IsReal (val_main_v13 (F := Ideal) x0 x1 x2 i) := by
  intro i
  rw [val_main_v13_apply]
  exact mulf_real (v10_real x0 x1 h0 i) (v12_real x2 h2 i)

/-- The first hop's zero accumulator. -/
theorem v14_real : ∀ i, IsReal (val_main_v14 (F := Ideal) i) := by
  intro i
  rw [val_main_v14_apply, val_main_cst_apply]
  exact zero_bits_real

/-- The first hop's result: the scaled rows added into the zero accumulator. -/
theorem v16_real (h0 : ∀ i, IsReal (x0 i)) (h2 : ∀ i, IsReal (x2 i)) :
    ∀ i, IsReal (val_main_v16 (F := Ideal) x0 x1 x2 i) := by
  intro i
  unfold val_main_v16
  have hu := v13_real x0 x1 x2 h0 h2
  have hx := v14_real
  generalize val_main_v13 (F := Ideal) x0 x1 x2 = upd at hu ⊢
  generalize val_main_v14 (F := Ideal) = acc at hx ⊢
  generalize val_main_v15 (F := Ideal) x1 = idx
  exact scatterAdd_real _ acc idx upd hx hu i

/-- The second hop's gathered rows of the first hop's result. -/
theorem v23_real (h0 : ∀ i, IsReal (x0 i)) (h2 : ∀ i, IsReal (x2 i)) :
    ∀ i, IsReal (val_main_v23 (F := Ideal) x0 x1 x2 i) := by
  intro i
  unfold val_main_v23
  have hx := v16_real x0 x1 x2 h0 h2
  generalize val_main_v16 (F := Ideal) x0 x1 x2 = y at hx ⊢
  generalize val_main_v22 (F := Ideal) x1 = idx
  exact gather_real _ y idx hx i

/-- The edge weights broadcast along the rows (second hop). -/
theorem v25_real (h2 : ∀ i, IsReal (x2 i)) : ∀ i, IsReal (val_main_v25 (F := Ideal) x2 i) := by
  intro i
  rw [val_main_v25_apply, val_main_v24_apply]
  exact h2 _

/-- The second hop's scaled rows. -/
theorem v26_real (h0 : ∀ i, IsReal (x0 i)) (h2 : ∀ i, IsReal (x2 i)) :
    ∀ i, IsReal (val_main_v26 (F := Ideal) x0 x1 x2 i) := by
  intro i
  rw [val_main_v26_apply]
  exact mulf_real (v23_real x0 x1 x2 h0 h2 i) (v25_real x2 h2 i)

/-- The second hop's zero accumulator. -/
theorem v27_real : ∀ i, IsReal (val_main_v27 (F := Ideal) i) := by
  intro i
  rw [val_main_v27_apply, val_main_cst_3_apply]
  exact zero_bits_real

/-- The second hop's result. -/
theorem v29_real (h0 : ∀ i, IsReal (x0 i)) (h2 : ∀ i, IsReal (x2 i)) :
    ∀ i, IsReal (val_main_v29 (F := Ideal) x0 x1 x2 i) := by
  intro i
  unfold val_main_v29
  have hu := v26_real x0 x1 x2 h0 h2
  have hx := v27_real
  generalize val_main_v26 (F := Ideal) x0 x1 x2 = upd at hu ⊢
  generalize val_main_v27 (F := Ideal) = acc at hx ⊢
  generalize val_main_v28 (F := Ideal) x1 = idx
  exact scatterAdd_real _ acc idx upd hx hu i

end Stages

open Cert.ReferenceIdeal Cert.ReferenceIdeal.ReadP Cert.RowLaw in
/-- Two hops of gather–scale–scatter-add and the cluster gather keep real entries real. -/
theorem hc_real (x0 : (⟨S100000x128, .f32⟩ : BufTy).Contents (Elt Ideal)) (x1 : (⟨S2x1600000, .i32⟩ : BufTy).Contents (Elt Ideal))
    (x2 : (⟨S1600000, .f32⟩ : BufTy).Contents (Elt Ideal)) (x3 : (⟨S50000, .i32⟩ : BufTy).Contents (Elt Ideal))
    (h0 : ∀ i, IsReal (x0 i)) (h2 : ∀ i, IsReal (x2 i)) : ∀ i, IsReal (val_main_v36 (F := Ideal) x0 x1 x2 x3 i) := by
  intro i
  unfold val_main_v36
  have hx := v29_real x0 x1 x2 h0 h2
  generalize val_main_v29 (F := Ideal) x0 x1 x2 = y at hx ⊢
  generalize val_main_v35 (F := Ideal) x3 = idx
  exact gather_real _ y idx hx i

/-! ## The precondition read over the extended reals -/

/-- The f32 pattern `0x7F800000` is `⊤`. -/
theorem inf_bits : Ideal.ofBits .f32 0x7F800000#32 = ⊤ := by
  simp [Ideal.ofBits, Ideal.ieee]

/-- `|a| < +∞` over the extended reals, where `|a|` is `max a (-a)`: `a` is neither `⊤` nor `⊥`. -/
theorem real_of_abs_lt_inf (a : EReal)
    (h : FloatOps.cmpf (F := Ideal) (φ := .f32) .olt (FloatOps.hostAbsf (F := Ideal) (φ := .f32) a)
      (FloatOps.ofBits (F := Ideal) .f32 0x7F800000#32) = 1#1) :
    IsReal a := by
  rw [Ideal.hostAbsf_def, Ideal.absf_def, Ideal.cmpf_def, Ideal.ofBits_def, inf_bits] at h
  unfold Ideal.cmp at h
  have hlt : max a (-a) < ⊤ := by
    by_contra hn
    simp [hn] at h
  have h1 : a < ⊤ := lt_of_le_of_lt (le_max_left _ _) hlt
  have h2 : -a < ⊤ := lt_of_le_of_lt (le_max_right _ _) hlt
  refine isReal_of_ne (ne_of_lt h1) ?_
  intro hb
  rw [hb] at h2
  simp at h2

/-- The rank-0 shape has one index. -/
instance scalarIdx_subsingleton : Subsingleton Cert.Pre_finite_inputs.S_.Idx := ⟨fun a b => funext fun d => d.elim0⟩

open Cert.Pre_finite_inputs in
/-- One conjunct of the precondition: `all (|a| < +∞)` came out 1, so every entry of `a` is real. -/
theorem all_real {S : Shape} (a : FVec Ideal S .f32) (hb : S_.BroadcastsInDim S (![] : Fin 0 → Fin S.rank))
    {axes : List (Fin S.rank)} (hr : S.ReducesTo axes S_) (hu : 0 < S_.numel)
    (e : Host.reduce IntOp.andi (cmpf .olt (Host.absf a) (broadcastInDim S ![] hb (constant (F := Ideal) S_ .f32 0x7F800000#32)))
      (constantI S_ 1 1#1) hr hu ValueIdx.ix0 = 1#1) :
    ∀ i, IsReal (a i) := by
  intro i
  exact real_of_abs_lt_inf (a i) (Host.reduce_andi_all _ _ hr hu ValueIdx.ix0 e i)

open Cert.Pre_finite_inputs in
/-- The precondition `finite_inputs` (a conjunction of six `all (|a| < +∞)`) read over the extended reals: every float
    argument is real. The three integer arguments are not constrained. -/
theorem inputs_real [Cert.Pre_finite_inputs.Facts]
    (a0 : FVec Ideal S100000x128 .f32) (a1 : IVec S2x1600000 32) (a2 : FVec Ideal S1600000 .f32) (a3 : IVec S50000 32)
    (a4 : IVec S100000 32) (a5 : FVec Ideal S128x128 .f32) (a6 : FVec Ideal S128 .f32) (a7 : FVec Ideal S64x128 .f32)
    (a8 : FVec Ideal S64 .f32)
    (h : Cert.Pre_finite_inputs.fn (F := Ideal) a0 a1 a2 a3 a4 a5 a6 a7 a8 = (fun _ => 1#1)) :
    (∀ i, IsReal (a0 i)) ∧ (∀ i, IsReal (a2 i)) ∧ (∀ i, IsReal (a5 i)) ∧ (∀ i, IsReal (a6 i)) ∧ (∀ i, IsReal (a7 i))
      ∧ (∀ i, IsReal (a8 i)) := by
  have e := congrFun h ValueIdx.ix0
  dsimp only [Cert.Pre_finite_inputs.fn, Cert.Pre_finite_inputs.fn_part1] at e
  simp only [andi, IntOp.andi_eq_one] at e
  obtain ⟨⟨⟨⟨⟨e0, e2⟩, e5⟩, e6⟩, e7⟩, e8⟩ := e
  exact ⟨all_real a0 _ _ _ e0, all_real a2 _ _ _ e2, all_real a5 _ _ _ e5, all_real a6 _ _ _ e6, all_real a7 _ _ _ e7,
    all_real a8 _ _ _ e8⟩

end Cert.Finite

end
-- ==== Proof.SharedPrefix.lean ====
/-
  The kernel's program and the reference compute the same gathered cluster rows.

  Both programs begin with the same host operations on the same arguments: the edge list's two rows are sliced out and
  flattened, negative source indices are wrapped, the rows of `x` are gathered, scaled by the edge weights and added into
  a zero array at the destination indices; the same once more on the result; and the rows named by the (wrapped)
  representative indices are gathered. On the kernel's side these operations run before its one kernel region, so the
  contents of the buffer that holds the gathered rows when the region is entered is the fold of those operations over the
  launch contents. Read back at that buffer, the fold is a composed term over the four arguments, and it is, operation
  for operation, the term the reference's stages spell. The two programs name their shapes and their gather and scatter
  dimension records separately, but these are the same literals, so the two terms agree by unfolding definitions, for
  every family of float values: no float operation is evaluated.

  The same holds for the last row gather's dimension record and for its index array (the wrapped cluster indices as a
  column), which the kernel's program computes after its region and the reference before its own last gather.
-/
import proofs.«153025_j33208687133419_1_alg».proof.Proof.Gen.KernelIdeal.Frame
import proofs.«153025_j33208687133419_1_alg».proof.Proof.RefReadPatched
import Idealize.ShloMosaic.Lib.StableHlo.Run

noncomputable section

namespace Cert.SharedPrefix

open Idealize.ShloMosaic Idealize.ShloMosaic.TcCoe Idealize.SL.Sem Idealize.ShloMosaic.StableHlo

variable {F : FTy → Type} [FloatOps F]

/-! ## The two programs' dimension records are the same records -/

/-- The edge gather (rows of a `[100000, 128]` array at `1600000` start indices). -/
theorem gatherEdge_eq :
    Cert.KernelIdeal.gather_S100000x128_S1600000x1_S1600000x128_1_0_n_n_0_1_1128
      = Cert.ReferenceIdeal.gather_S100000x128_S1600000x1_S1600000x128_1_0_n_n_0_1_1128 := rfl

/-- The edge scatter (rows added into a `[100000, 128]` array at `1600000` indices). -/
theorem scatterEdge_eq :
    Cert.KernelIdeal.scatter_S100000x128_S1600000x1_S1600000x128_1_0_0_1
      = Cert.ReferenceIdeal.scatter_S100000x128_S1600000x1_S1600000x128_1_0_0_1 := rfl

/-- The cluster gather (rows of a `[100000, 128]` array at `50000` start indices). -/
theorem gatherCluster_eq :
    Cert.KernelIdeal.gather_S100000x128_S50000x1_S50000x128_1_0_n_n_0_1_1128
      = Cert.ReferenceIdeal.gather_S100000x128_S50000x1_S50000x128_1_0_n_n_0_1_1128 := rfl

/-- The last row gather (rows of a `[50000, 64]` array at `100000` start indices). -/
theorem gatherOut_eq :
    Cert.KernelIdeal.gather_S50000x64_S100000x1_S100000x64_1_0_n_n_0_1_164
      = Cert.ReferenceIdeal.gather_S50000x64_S100000x1_S100000x64_1_0_n_n_0_1_164 := rfl

/-! ## The gathered cluster rows -/

/-- When the kernel's region is entered, the buffer of the gathered cluster rows holds the reference's stage 36 of the
    launch contents of the first four arguments. -/
theorem hc_eq (m : (ℓ : Loc Cert.KernelIdeal.nD Cert.KernelIdeal.τ Cert.KernelIdeal.sig) → Buf (Elt F) ℓ) (c : Dev Cert.KernelIdeal.nD) :
    (Cert.KernelIdeal.Gen.V m c Cert.KernelIdeal.main_v36 : (⟨Cert.KernelIdeal.S50000x128, .f32⟩ : BufTy).Contents (Elt F))
      = Cert.ReferenceIdeal.ReadP.val_main_v36 (F := F)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3)) := by
  dsimp only [Cert.KernelIdeal.Gen.V, Cert.KernelIdeal.Gen.V0]
  simp only [Cert.KernelIdeal.Gen.hostOps0, List.flatten_cons, List.flatten_nil, List.append_nil]
  after_results_simp
  unfold Cert.ReferenceIdeal.ReadP.val_main_v36 Cert.ReferenceIdeal.ReadP.val_main_v35 Cert.ReferenceIdeal.ReadP.val_main_v34 Cert.ReferenceIdeal.ReadP.val_main_v33 Cert.ReferenceIdeal.ReadP.val_main_v32 Cert.ReferenceIdeal.ReadP.val_main_c_5 Cert.ReferenceIdeal.ReadP.val_main_v31 Cert.ReferenceIdeal.ReadP.val_main_v30 Cert.ReferenceIdeal.ReadP.val_main_c_4 Cert.ReferenceIdeal.ReadP.val_main_v29 Cert.ReferenceIdeal.ReadP.val_main_v28 Cert.ReferenceIdeal.ReadP.val_main_v27 Cert.ReferenceIdeal.ReadP.val_main_cst_3 Cert.ReferenceIdeal.ReadP.val_main_v26 Cert.ReferenceIdeal.ReadP.val_main_v25 Cert.ReferenceIdeal.ReadP.val_main_v24 Cert.ReferenceIdeal.ReadP.val_main_v23 Cert.ReferenceIdeal.ReadP.val_main_v22 Cert.ReferenceIdeal.ReadP.val_main_v21 Cert.ReferenceIdeal.ReadP.val_main_v20 Cert.ReferenceIdeal.ReadP.val_main_v19 Cert.ReferenceIdeal.ReadP.val_main_c_2 Cert.ReferenceIdeal.ReadP.val_main_v18 Cert.ReferenceIdeal.ReadP.val_main_v17 Cert.ReferenceIdeal.ReadP.val_main_c_1 Cert.ReferenceIdeal.ReadP.val_main_v16 Cert.ReferenceIdeal.ReadP.val_main_v15 Cert.ReferenceIdeal.ReadP.val_main_v14 Cert.ReferenceIdeal.ReadP.val_main_cst Cert.ReferenceIdeal.ReadP.val_main_v13 Cert.ReferenceIdeal.ReadP.val_main_v12 Cert.ReferenceIdeal.ReadP.val_main_v11 Cert.ReferenceIdeal.ReadP.val_main_v10 Cert.ReferenceIdeal.ReadP.val_main_v9 Cert.ReferenceIdeal.ReadP.val_main_v8 Cert.ReferenceIdeal.ReadP.val_main_v7 Cert.ReferenceIdeal.ReadP.val_main_v6 Cert.ReferenceIdeal.ReadP.val_main_c_0 Cert.ReferenceIdeal.ReadP.val_main_v5 Cert.ReferenceIdeal.ReadP.val_main_v4 Cert.ReferenceIdeal.ReadP.val_main_c Cert.ReferenceIdeal.ReadP.val_main_v3 Cert.ReferenceIdeal.ReadP.val_main_v2 Cert.ReferenceIdeal.ReadP.val_main_v1 Cert.ReferenceIdeal.ReadP.val_main_v0
  rfl

/-- Likewise the buffer of the transposed first-layer weights holds the reference's stage 37 of the fifth argument. -/
theorem w1t_eq (m : (ℓ : Loc Cert.KernelIdeal.nD Cert.KernelIdeal.τ Cert.KernelIdeal.sig) → Buf (Elt F) ℓ) (c : Dev Cert.KernelIdeal.nD) :
    (Cert.KernelIdeal.Gen.V m c Cert.KernelIdeal.main_v37 : (⟨Cert.KernelIdeal.S128x128, .f32⟩ : BufTy).Contents (Elt F))
      = Cert.ReferenceIdeal.ReadP.val_main_v37 (F := F) (m ((c.tc : Thread Cert.KernelIdeal.nD Cert.KernelIdeal.τ).loc Cert.KernelIdeal.main_arg5)) := by
  dsimp only [Cert.KernelIdeal.Gen.V, Cert.KernelIdeal.Gen.V0]
  simp only [Cert.KernelIdeal.Gen.hostOps0, List.flatten_cons, List.flatten_nil, List.append_nil]
  after_results_simp
  unfold Cert.ReferenceIdeal.ReadP.val_main_v37
  rfl

/-! ## The last gather's index array -/

/-- The wrapped cluster indices as a column, as the kernel's program spells them after its region, are the reference's
    stage 53 of the cluster-index argument. The two side conditions of the broadcasts are taken as hypotheses, so that
    the equation rewrites the kernel's term whichever proofs it carries. -/
theorem idxOut_eq (x4 : (⟨Cert.KernelIdeal.S100000, .i32⟩ : BufTy).Contents (Elt F))
    (hb0 : Cert.KernelIdeal.S_.BroadcastsInDim Cert.KernelIdeal.S100000 (![] : Fin 0 → Fin Cert.KernelIdeal.S100000.rank))
    (hb1 : Cert.KernelIdeal.S100000.BroadcastsInDim Cert.KernelIdeal.S100000x1 (![0] : Fin 1 → Fin Cert.KernelIdeal.S100000x1.rank)) :
    (broadcastInDim Cert.KernelIdeal.S100000x1 ![0] hb1
      (select (cmpi .slt x4 (broadcastInDim Cert.KernelIdeal.S100000 ![] hb0 (constantI Cert.KernelIdeal.S_ 32 0#32)))
        (addi x4 (broadcastInDim Cert.KernelIdeal.S100000 ![] hb0 (constantI Cert.KernelIdeal.S_ 32 50000#32))) x4)
      : (⟨Cert.KernelIdeal.S100000x1, .i32⟩ : BufTy).Contents (Elt F))
      = Cert.ReferenceIdeal.ReadP.val_main_v53 (F := F) x4 := by
  unfold Cert.ReferenceIdeal.ReadP.val_main_v53 Cert.ReferenceIdeal.ReadP.val_main_v52 Cert.ReferenceIdeal.ReadP.val_main_v51 Cert.ReferenceIdeal.ReadP.val_main_v50 Cert.ReferenceIdeal.ReadP.val_main_c_7 Cert.ReferenceIdeal.ReadP.val_main_v49 Cert.ReferenceIdeal.ReadP.val_main_v48 Cert.ReferenceIdeal.ReadP.val_main_c_6
  rfl

end Cert.SharedPrefix

end
-- ==== Proof.lean ====
/-
  The proof of `Cert.Claim`: the three frames, the (empty) idealization ledger, and the equivalence over the extended reals
  of a two-layer perceptron with a row-wise log-softmax over 50000 gathered cluster rows, computed in 25 blocks of 2000
  rows and then gathered to 100000 rows, against the same perceptron gathered first and normalised after.

  Where the mathematics is. Proof/RowLaw.lean: for a row of real logits and any real shift `m`, both
  `y - (log ∑ exp (y - m) + m)` and `(y - m) - log ∑ exp (y - m)` are `y - log ∑ exp y`; on the extended reals the two
  spellings differ at an infinite shift, so finiteness is carried. Proof/Spec.lean: the perceptron's logits and the
  normalised rows as functions of the gathered cluster rows and the weights. Proof/KernelPayload.lean, KernelOperands.lean,
  KernelArray.lean: what one block of the kernel stores, what the region finds and what follows it, and the blocks tiling
  the result array. Proof/RefValue.lean, RefRun.lean: the reference's stages read at an index, and its run. Proof/Finite.lean:
  the precondition makes every float argument real, and the propagation keeps reals real. Proof/SharedPrefix.lean: the two
  programs' propagations are one term of the arguments.
-/
import proofs.«153025_j33208687133419_1_alg».proof.Defs
import proofs.«153025_j33208687133419_1_alg».proof.Proof.Gen.Kernel
import proofs.«153025_j33208687133419_1_alg».proof.Proof.Gen.Kernel.Skeleton
import proofs.«153025_j33208687133419_1_alg».proof.Proof.Gen.Kernel.Launch
import proofs.«153025_j33208687133419_1_alg».proof.Proof.Gen.Kernel.Points
import proofs.«153025_j33208687133419_1_alg».proof.Proof.Gen.Kernel.Frame
import proofs.«153025_j33208687133419_1_alg».proof.Proof.Gen.KernelIdeal
import proofs.«153025_j33208687133419_1_alg».proof.Proof.Gen.KernelIdeal.Skeleton
import proofs.«153025_j33208687133419_1_alg».proof.Proof.Gen.KernelIdeal.Launch
import proofs.«153025_j33208687133419_1_alg».proof.Proof.Gen.KernelIdeal.Points
import proofs.«153025_j33208687133419_1_alg».proof.Proof.Gen.KernelIdeal.Frame
import proofs.«153025_j33208687133419_1_alg».proof.Proof.Gen.ReferenceIdeal
import proofs.«153025_j33208687133419_1_alg».proof.Proof.Gen.Pre_finite_inputs
import proofs.«153025_j33208687133419_1_alg».proof.Proof.KernelArray
import proofs.«153025_j33208687133419_1_alg».proof.Proof.RefValue
import proofs.«153025_j33208687133419_1_alg».proof.Proof.RefRun
import proofs.«153025_j33208687133419_1_alg».proof.Proof.Finite
import proofs.«153025_j33208687133419_1_alg».proof.Proof.SharedPrefix
import Idealize.ShloMosaic.Adequacy
import Idealize.ShloMosaic.Init

noncomputable section

namespace Cert.Proof

open Idealize.ShloMosaic Idealize.SL.Sem Cert.RowLaw

/-- The word-level kernel's frame is generated whole. -/
theorem frame_kernel : Cert.frame_Kernel := fun m ρ _ => Cert.Kernel.Gen.frame m ρ

/-- So is the idealized kernel's. -/
theorem frame_kernelIdeal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.RefRun.run (F := Ideal) m ρ)

/-- Both programs end at the normalised cluster rows gathered by the cluster index. Under the precondition every float
    argument is real, so the gathered cluster rows are (two hops of gather, scale and accumulate keep reals real), and the
    row law applies on both sides: the kernel normalises each of the 50000 cluster rows and gathers, the reference gathers
    and normalises each of the 100000 result rows; a gather reads whole rows, so the two agree. The shared propagation is
    never opened beyond its finiteness: both programs apply the same operations to the same arguments. -/
theorem algebraic : Cert.algebraic_KernelIdeal_ReferenceIdeal := by
  intro m ρ m' ρ' hpre hagree
  have hin := fun c : Dev Cert.KernelIdeal.nD => Cert.Finite.inputs_real _ _ _ _ _ _ _ _ _ (hpre c)
  have hhcR : ∀ (c : Dev Cert.KernelIdeal.nD) i, IsReal (Cert.ReferenceIdeal.ReadP.val_main_v36 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)) i) :=
    fun c => Cert.Finite.hc_real _ _ _ _ (hin c).1 (hin c).2.1
  have hhcK : ∀ (c : Dev Cert.KernelIdeal.nD) i, IsReal (Cert.KernelIdeal.Hand.hcArr m c i) := fun c i => by
    rw [show Cert.KernelIdeal.Hand.hcArr m c i = _ from congrFun (Cert.SharedPrefix.hc_eq (F := Ideal) m c) i]
    exact hhcR c i
  refine ⟨fun c => Host.gather Cert.KernelIdeal.gather_S50000x64_S100000x1_S100000x64_1_0_n_n_0_1_164 (Cert.KernelIdeal.Hand.rowsArr m c)
      (Cert.KernelIdeal.Operands.ciIdx (m ((c.tc : Thread Cert.KernelIdeal.nD Cert.KernelIdeal.τ).loc Cert.KernelIdeal.main_arg4))),
    Cert.KernelIdeal.Hand.run m ρ hhcK (fun c => (hin c).2.2.1) (fun c => (hin c).2.2.2.1) (fun c => (hin c).2.2.2.2.1)
      (fun c => (hin c).2.2.2.2.2), ?_⟩
  refine (θ_run Cert.ReferenceIdeal.defs _ _).mono (fun r h c => ⟨(h c).1.trans ?_, (h c).2⟩) (Cert.RefRun.run (F := Ideal) m' ρ')
  obtain ⟨e0, e1, e2, e3, e4, e5, e6, e7, e8⟩ := hagree c
  rw [e0, e1, e2, e3, e4, e5, e6, e7, e8]
  rw [Cert.RefValue.result_eq _ _ _ _ _ _ _ _ _ (hhcR c) (hin c).2.2.1 (hin c).2.2.2.1 (hin c).2.2.2.2.1 (hin c).2.2.2.2.2]
  have hidx : Cert.KernelIdeal.Operands.ciIdx (F := Ideal) (m ((c.tc : Thread Cert.KernelIdeal.nD Cert.KernelIdeal.τ).loc Cert.KernelIdeal.main_arg4)) = Cert.ReferenceIdeal.ReadP.val_main_v53 (F := Ideal) (m ((c.tc : Thread Cert.KernelIdeal.nD Cert.KernelIdeal.τ).loc Cert.KernelIdeal.main_arg4)) :=
    Cert.SharedPrefix.idxOut_eq _ _ _
  have hrows : Cert.KernelIdeal.Hand.rowsArr m c
      = Cert.Spec.rows (Cert.ReferenceIdeal.ReadP.val_main_v36 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)))
          (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) :=
    congrArg (fun H => Cert.Spec.rows H (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)))
      (Cert.SharedPrefix.hc_eq (F := Ideal) m c)
  beta_reduce
  rw [hidx, hrows, Cert.SharedPrefix.gatherOut_eq]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
